-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096x16 : Shape := ⟨2, ![4096, 16]⟩
abbrev S1024 : Shape := ⟨1, ![1024]⟩
abbrev S32x1024 : Shape := ⟨2, ![32, 1024]⟩
abbrev S4096x32 : Shape := ⟨2, ![4096, 32]⟩
abbrev S4096 : Shape := ⟨1, ![4096]⟩
abbrev S1024x4096 : Shape := ⟨2, ![1024, 4096]⟩
abbrev S1024x64 : Shape := ⟨2, ![1024, 64]⟩
abbrev S32x4096 : Shape := ⟨2, ![32, 4096]⟩
abbrev S1024x32 : Shape := ⟨2, ![1024, 32]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S1024 : S_.BroadcastsInDim S1024 (![] : Fin 0 → Fin S1024.rank)
  reducesTo_S1024_S_d0 : S1024.ReducesTo [0] S_
  bcast_S_S32x1024 : S_.BroadcastsInDim S32x1024 (![] : Fin 0 → Fin S32x1024.rank)
  reducesTo_S32x1024_S_d0_1 : S32x1024.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S1024x64 : S_.BroadcastsInDim S1024x64 (![] : Fin 0 → Fin S1024x64.rank)
  reducesTo_S1024x64_S_d0_1 : S1024x64.ReducesTo [0, 1] S_
  bcast_S_S32x4096 : S_.BroadcastsInDim S32x4096 (![] : Fin 0 → Fin S32x4096.rank)
  reducesTo_S32x4096_S_d0_1 : S32x4096.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg9 : FVec F S4096 .f32) (main_arg10 : FVec F S32x4096 .f32) (main_arg11 : FVec F S1024x32 .f32) (main_arg12 : FVec F S1024 .f32) (main_v33 : IVec S_ 1) : IVec S_ 1 :=
  let main_v34 : FVec F S4096 .f32 := Host.absf main_arg9
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S32x4096 .f32 := Host.absf main_arg10
  let main_cst_14 : FVec F S_ .f32 := constant S_ .f32 0x7F800000#32
  let main_v40 : FVec F S32x4096 .f32 := broadcastInDim S32x4096 ![] bcast_S_S32x4096 main_cst_14
  let main_v41 : IVec S32x4096 1 := cmpf .olt main_v39 main_v40
  let main_c_15 : IVec S_ 1 := constantI S_ 1 1#1
  let main_v42 : IVec S_ 1 := (fun x v => Host.reduce IntOp.andi x v reducesTo_S32x4096_S_d0_1 h_S_) main_v41 main_c_15
  let main_v43 : IVec S_ 1 := andi main_v38 main_v42
  let main_v44 : FVec F S1024x32 .f32 := Host.absf main_arg11
  let main_cst_16 : FVec F S_ .f32 := constant S_ .f32 0x7F800000#32
  let main_v45 : FVec F S1024x32 .f32 := broadcastInDim S1024x32 ![] bcast_S_S1024x32 main_cst_16
  let main_v46 : IVec S1024x32 1 := cmpf .olt main_v44 main_v45
  let main_c_17 : IVec S_ 1 := constantI S_ 1 1#1
  let main_v47 : IVec S_ 1 := (fun x v => Host.reduce IntOp.andi x v reducesTo_S1024x32_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S4096x32 .f32) (main_arg6 : FVec F S4096 .f32) (main_arg8 : FVec F S1024x64 .f32) (main_arg9 : FVec F S4096 .f32) (main_arg10 : FVec F S32x4096 .f32) (main_arg11 : FVec F S1024x32 .f32) (main_arg12 : FVec F S1024 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S4096x32 .f32 := Host.absf main_arg5
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x64 .f32 := Host.absf main_arg8
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S16384x1024 .f32) (main_arg1 : IVec S4096x1024 32) (main_arg2 : FVec F S4096x16 .f32) (main_arg3 : FVec F S1024 .f32) (main_arg4 : FVec F S32x1024 .f32) (main_arg5 : FVec F S4096x32 .f32) (main_arg6 : FVec F S4096 .f32) (main_arg7 : IVec S1024x4096 32) (main_arg8 : FVec F S1024x64 .f32) (main_arg9 : FVec F S4096 .f32) (main_arg10 : FVec F S32x4096 .f32) (main_arg11 : FVec F S1024x32 .f32) (main_arg12 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32x1024 .f32 := Host.absf main_arg4
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg5 main_arg6 main_arg8 main_arg9 main_arg10 main_arg11 main_arg12 main_v13 main_v16
-- ==== Kernel.lean ====
abbrev S16384x1024 : Shape := ⟨2, ![16384, 1024]⟩
abbrev S4096x1024 : Shape := ⟨2, ![4096, 1024]⟩
abbrev S4096x16 : Shape := ⟨2, ![4096, 16]⟩
abbrev S1024 : Shape := ⟨1, ![1024]⟩
abbrev S32x1024 : Shape := ⟨2, ![32, 1024]⟩
abbrev S4096x32 : Shape := ⟨2, ![4096, 32]⟩
abbrev S4096 : Shape := ⟨1, ![4096]⟩
abbrev S1024x4096 : Shape := ⟨2, ![1024, 4096]⟩
abbrev S1024x64 : Shape := ⟨2, ![1024, 64]⟩
abbrev S32x4096 : Shape := ⟨2, ![32, 4096]⟩
abbrev S1024x32 : Shape := ⟨2, ![1024, 32]⟩
abbrev S4096x16x64 : Shape := ⟨3, ![4096, 16, 64]⟩
abbrev S4096x16x1 : Shape := ⟨3, ![4096, 16, 1]⟩
abbrev S1024x64x64 : Shape := ⟨3, ![1024, 64, 64]⟩
abbrev S1024x64x1 : Shape := ⟨3, ![1024, 64, 1]⟩
abbrev S1x1024 : Shape := ⟨2, ![1, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S16384x4096 : Shape := ⟨2, ![16384, 4096]⟩
abbrev S256x1024 : Shape := ⟨2, ![256, 1024]⟩
abbrev S256x4096 : Shape := ⟨2, ![256, 4096]⟩
abbrev S256x32 : Shape := ⟨2, ![256, 32]⟩
abbrev S1x4096 : Shape := ⟨2, ![1, 4096]⟩
abbrev S16384x64x64 : Shape := ⟨3, ![16384, 64, 64]⟩
abbrev S16384x64 : Shape := ⟨2, ![16384, 64]⟩
abbrev S16384x64x1 : Shape := ⟨3, ![16384, 64, 1]⟩
abbrev S512x4096 : Shape := ⟨2, ![512, 4096]⟩
abbrev S512x1024 : Shape := ⟨2, ![512, 1024]⟩
abbrev S512x32 : Shape := ⟨2, ![512, 32]⟩

abbrev nBuf : Space → Nat
  | .hbm => 99
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S4096x1024, .i32⟩
  | .hbm, ⟨2, _⟩ => ⟨S4096x16, .f32⟩
  | .hbm, ⟨3, _⟩ => ⟨S1024, .f32⟩
  | .hbm, ⟨4, _⟩ => ⟨S32x1024, .f32⟩
  | .hbm, ⟨5, _⟩ => ⟨S4096x32, .f32⟩
  | .hbm, ⟨6, _⟩ => ⟨S4096, .f32⟩
  | .hbm, ⟨7, _⟩ => ⟨S1024x4096, .i32⟩
  | .hbm, ⟨8, _⟩ => ⟨S1024x64, .f32⟩
  | .hbm, ⟨9, _⟩ => ⟨S4096, .f32⟩
  | .hbm, ⟨10, _⟩ => ⟨S32x4096, .f32⟩
  | .hbm, ⟨11, _⟩ => ⟨S1024x32, .f32⟩
  | .hbm, ⟨12, _⟩ => ⟨S1024, .f32⟩
  | .hbm, ⟨13, _⟩ => ⟨S4096x1024, .f32⟩
  | .hbm, ⟨14, _⟩ => ⟨S4096x16x64, .f32⟩
  | .hbm, ⟨15, _⟩ => ⟨S4096x16x1, .f32⟩
  | .hbm, ⟨16, _⟩ => ⟨S4096x16x64, .f32⟩
  | .hbm, ⟨17, _⟩ => ⟨S4096x16x64, .f32⟩
  | .hbm, ⟨18, _⟩ => ⟨S4096x1024, .f32⟩
  | .hbm, ⟨19, _⟩ => ⟨S1024x4096, .f32⟩
  | .hbm, ⟨20, _⟩ => ⟨S1024x4096, .bf16⟩
  | .hbm, ⟨21, _⟩ => ⟨S1024x4096, .f32⟩
  | .hbm, ⟨22, _⟩ => ⟨S1024x64x64, .f32⟩
  | .hbm, ⟨23, _⟩ => ⟨S1024x64x1, .f32⟩
  | .hbm, ⟨24, _⟩ => ⟨S1024x64x64, .f32⟩
  | .hbm, ⟨25, _⟩ => ⟨S1024x64x64, .f32⟩
  | .hbm, ⟨26, _⟩ => ⟨S1024x4096, .f32⟩
  | .hbm, ⟨27, _⟩ => ⟨S4096x1024, .f32⟩
  | .hbm, ⟨28, _⟩ => ⟨S4096x1024, .bf16⟩
  | .hbm, ⟨29, _⟩ => ⟨S1024x32, .f32⟩
  | .hbm, ⟨30, _⟩ => ⟨S1024x32, .bf16⟩
  | .hbm, ⟨31, _⟩ => ⟨S32x4096, .f32⟩
  | .hbm, ⟨32, _⟩ => ⟨S32x4096, .bf16⟩
  | .hbm, ⟨33, _⟩ => ⟨S4096x32, .f32⟩
  | .hbm, ⟨34, _⟩ => ⟨S4096x32, .bf16⟩
  | .hbm, ⟨35, _⟩ => ⟨S32x1024, .f32⟩
  | .hbm, ⟨36, _⟩ => ⟨S32x1024, .bf16⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x16x64, .f32⟩
  | .hbm, ⟨41, _⟩ => ⟨S16384x16x64, .f32⟩
  | .hbm, ⟨42, _⟩ => ⟨S_, .f32⟩
  | .hbm, ⟨43, _⟩ => ⟨S16384x16, .f32⟩
  | .hbm, ⟨44, _⟩ => ⟨S16384x16x1, .f32⟩
  | .hbm, ⟨45, _⟩ => ⟨S_, .f32⟩
  | .hbm, ⟨46, _⟩ => ⟨S16384x16x1, .f32⟩
  | .hbm, ⟨47, _⟩ => ⟨S16384x16x1, .f32⟩
  | .hbm, ⟨48, _⟩ => ⟨S_, .f32⟩
  | .hbm, ⟨49, _⟩ => ⟨S16384x16x1, .f32⟩
  | .hbm, ⟨50, _⟩ => ⟨S16384x16x1, .f32⟩
  | .hbm, ⟨51, _⟩ => ⟨S16384x16x64, .f32⟩
  | .hbm, ⟨52, _⟩ => ⟨S16384x16x64, .f32⟩
  | .hbm, ⟨53, _⟩ => ⟨S16384x16x64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16384x16x64, .f32⟩
  | .hbm, ⟨58, _⟩ => ⟨S16384x16x64, .f32⟩
  | .hbm, ⟨59, _⟩ => ⟨S_, .f32⟩
  | .hbm, ⟨60, _⟩ => ⟨S16384x16x64, .f32⟩
  | .hbm, ⟨61, _⟩ => ⟨S16384x16x64, .f32⟩
  | .hbm, ⟨62, _⟩ => ⟨S16384x16x64, .f32⟩
  | .hbm, ⟨63, _⟩ => ⟨S16384x16x64, .f32⟩
  | .hbm, ⟨64, _⟩ => ⟨S16384x1024, .f32⟩
  | .hbm, ⟨65, _⟩ => ⟨S16384x1024, .bf16⟩
  | .hbm, ⟨66, _⟩ => ⟨S16384x1024, .bf16⟩
  | .hbm, ⟨67, _⟩ => ⟨S16384x4096, .f32⟩
  | .hbm, ⟨68, _⟩ => ⟨S1x4096, .f32⟩
  | .hbm, ⟨69, _⟩ => ⟨S16384x4096, .f32⟩
  | .hbm, ⟨70, _⟩ => ⟨S16384x4096, .f32⟩
  | .hbm, ⟨71, _⟩ => ⟨S16384x64x64, .f32⟩
  | .hbm, ⟨72, _⟩ => ⟨S16384x64x64, .f32⟩
  | .hbm, ⟨73, _⟩ => ⟨S_, .f32⟩
  | .hbm, ⟨74, _⟩ => ⟨S16384x64, .f32⟩
  | .hbm, ⟨75, _⟩ => ⟨S16384x64x1, .f32⟩
  | .hbm, ⟨76, _⟩ => ⟨S_, .f32⟩
  | .hbm, ⟨77, _⟩ => ⟨S16384x64x1, .f32⟩
  | .hbm, ⟨78, _⟩ => ⟨S16384x64x1, .f32⟩
  | .hbm, ⟨79, _⟩ => ⟨S_, .f32⟩
  | .hbm, ⟨80, _⟩ => ⟨S16384x64x1, .f32⟩
  | .hbm, ⟨81, _⟩ => ⟨S16384x64x1, .f32⟩
  | .hbm, ⟨82, _⟩ => ⟨S16384x64x64, .f32⟩
  | .hbm, ⟨83, _⟩ => ⟨S16384x64x64, .f32⟩
  | .hbm, ⟨84, _⟩ => ⟨S16384x64x64, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S16384x64x64, .f32⟩
  | .hbm, ⟨89, _⟩ => ⟨S16384x64x64, .f32⟩
  | .hbm, ⟨90, _⟩ => ⟨S_, .f32⟩
  | .hbm, ⟨91, _⟩ => ⟨S16384x64x64, .f32⟩
  | .hbm, ⟨92, _⟩ => ⟨S16384x64x64, .f32⟩
  | .hbm, ⟨93, _⟩ => ⟨S16384x64x64, .f32⟩
  | .hbm, ⟨94, _⟩ => ⟨S16384x64x64, .f32⟩
  | .hbm, ⟨95, _⟩ => ⟨S16384x4096, .f32⟩
  | .hbm, ⟨96, _⟩ => ⟨S16384x4096, .bf16⟩
  | .hbm, ⟨97, _⟩ => ⟨S16384x4096, .bf16⟩
  | .hbm, ⟨98, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x4096, .bf16⟩
  | .local _ .vmem, ⟨5, _⟩ => ⟨S1024x32, .bf16⟩
  | .local _ .vmem, ⟨6, _⟩ => ⟨S32x4096, .bf16⟩
  | .local _ .vmem, ⟨7, _⟩ => ⟨S4096, .f32⟩
  | .local _ .vmem, ⟨8, _⟩ => ⟨S256x4096, .f32⟩
  | .local _ .vmem, ⟨9, _⟩ => ⟨S256x4096, .f32⟩
  | .local _ .vmem, ⟨10, _⟩ => ⟨S512x4096, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S4096x1024, .bf16⟩
  | .local _ .vmem, ⟨15, _⟩ => ⟨S4096x32, .bf16⟩
  | .local _ .vmem, ⟨16, _⟩ => ⟨S32x1024, .bf16⟩
  | .local _ .vmem, ⟨17, _⟩ => ⟨S1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_cst_0 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_cst_3 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_7 : Ref sig .tc := ⟨.hbm, 85, rfl⟩
abbrev main_cst_8 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S4096x1024_S4096x16x64 : S4096x1024.ShapeCasts S4096x16x64
  bcast_S4096x16_S4096x16x1_0_1 : S4096x16.BroadcastsInDim S4096x16x1 (![0, 1] : Fin 2 → Fin S4096x16x1.rank)
  bcast_S4096x16x1_S4096x16x64_0_1_2 : S4096x16x1.BroadcastsInDim S4096x16x64 (![0, 1, 2] : Fin 3 → Fin S4096x16x64.rank)
  shapeCasts_S4096x16x64_S4096x1024 : S4096x16x64.ShapeCasts S4096x1024
  transposes_S4096x1024_S1024x4096_1_0 : S4096x1024.Transposes [1, 0] S1024x4096
  bitsLt_bf16_f32 : FTy.bits .bf16 < FTy.bits .f32
  shapeCasts_S1024x4096_S1024x64x64 : S1024x4096.ShapeCasts S1024x64x64
  bcast_S1024x64_S1024x64x1_0_1 : S1024x64.BroadcastsInDim S1024x64x1 (![0, 1] : Fin 2 → Fin S1024x64x1.rank)
  bcast_S1024x64x1_S1024x64x64_0_1_2 : S1024x64x1.BroadcastsInDim S1024x64x64 (![0, 1, 2] : Fin 3 → Fin S1024x64x64.rank)
  shapeCasts_S1024x64x64_S1024x4096 : S1024x64x64.ShapeCasts S1024x4096
  transposes_S1024x4096_S4096x1024_1_0 : S1024x4096.Transposes [1, 0] S4096x1024
  transposes_S32x1024_S1024x32_1_0 : S32x1024.Transposes [1, 0] S1024x32
  transposes_S4096x32_S32x4096_1_0 : S4096x32.Transposes [1, 0] S32x4096
  transposes_S32x4096_S4096x32_1_0 : S32x4096.Transposes [1, 0] S4096x32
  transposes_S1024x32_S32x1024_1_0 : S1024x32.Transposes [1, 0] S32x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  reducesTo_S16384x16x64_S16384x16_d2 : S16384x16x64.ReducesTo [2] S16384x16
  h_S_ : 0 < S_.numel
  bcast_S16384x16_S16384x16x1_0_1 : S16384x16.BroadcastsInDim S16384x16x1 (![0, 1] : Fin 2 → Fin S16384x16x1.rank)
  bcast_S_S16384x16x1 : S_.BroadcastsInDim S16384x16x1 (![] : Fin 0 → Fin S16384x16x1.rank)
  bcast_S16384x16x1_S16384x16x64_0_1_2 : S16384x16x1.BroadcastsInDim S16384x16x64 (![0, 1, 2] : Fin 3 → Fin S16384x16x64.rank)
  bcast_S_S16384x16x64 : S_.BroadcastsInDim S16384x16x64 (![] : Fin 0 → Fin S16384x16x64.rank)
  shapeCasts_S16384x16x64_S16384x1024 : S16384x16x64.ShapeCasts S16384x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S16384x64x64 : S16384x4096.ShapeCasts S16384x64x64
  reducesTo_S16384x64x64_S16384x64_d2 : S16384x64x64.ReducesTo [2] S16384x64
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S16384x64x1_S16384x64x64_0_1_2 : S16384x64x1.BroadcastsInDim S16384x64x64 (![0, 1, 2] : Fin 3 → Fin S16384x64x64.rank)
  bcast_S_S16384x64x64 : S_.BroadcastsInDim S16384x64x64 (![] : Fin 0 → Fin S16384x64x64.rank)
  shapeCasts_S16384x64x64_S16384x4096 : S16384x64x64.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S256x1024_S1024x4096_S256x4096_1_0_0_1_n_n_wf : DotDims.WF S256x1024 S1024x4096 S256x4096 [1] [0] [0] [1] [] []
  dot_S256x1024_S1024x32_S256x32_1_0_0_1_n_n_wf : DotDims.WF S256x1024 S1024x32 S256x32 [1] [0] [0] [1] [] []
  dot_S256x32_S32x4096_S256x4096_1_0_0_1_n_n_wf : DotDims.WF S256x32 S32x4096 S256x4096 [1] [0] [0] [1] [] []
  dot_S512x4096_S4096x1024_S512x1024_1_0_0_1_n_n_wf : DotDims.WF S512x4096 S4096x1024 S512x1024 [1] [0] [0] [1] [] []
  dot_S512x4096_S4096x32_S512x32_1_0_0_1_n_n_wf : DotDims.WF S512x4096 S4096x32 S512x32 [1] [0] [0] [1] [] []
  dot_S512x32_S32x1024_S512x1024_1_0_0_1_n_n_wf : DotDims.WF S512x32 S32x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .bf16 = 32 ∨ (Rect.block (s := S16384x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .bf16 = 32 ∨ (Rect.block (s := S16384x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .bf16 = 32 ∨ (Rect.block (s := S1024x32) S1024x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x4096.size a ≤ S32x4096.size a
  hwx0_4 : ∀ i : grid0.Coords, EltTy.bits .bf16 = 32 ∨ (Rect.block (s := S32x4096) S32x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S16384x4096.size a
  hwx0_6 : ∀ i : grid0.Coords, EltTy.bits .f32 = 32 ∨ (Rect.block (s := S16384x4096) S256x4096.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .bf16 = 32 ∨ (Rect.block (s := S16384x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .bf16 = 32 ∨ (Rect.block (s := S16384x4096) S512x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x32.size a ≤ S4096x32.size a
  hwx1_3 : ∀ i : grid1.Coords, EltTy.bits .bf16 = 32 ∨ (Rect.block (s := S4096x32) S4096x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1024.size a ≤ S32x1024.size a
  hwx1_4 : ∀ i : grid1.Coords, EltTy.bits .bf16 = 32 ∨ (Rect.block (s := S32x1024) S32x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S16384x1024.size a
  hwx1_6 : ∀ i : grid1.Coords, EltTy.bits .f32 = 32 ∨ (Rect.block (s := S16384x1024) S512x1024.size (cc1_transform_6 i) (hinb1_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x32_S32x1024_S512x1024_1_0_0_1_n_n : DotDims S512x32 S32x1024 S512x1024 where
  lhsContracting := [1]
  rhsContracting := [0]
  lhsNonContracting := [0]
  rhsNonContracting := [1]
  lhsBatch := []
  rhsBatch := []
  wf := dot_S512x32_S32x1024_S512x1024_1_0_0_1_n_n_wf

abbrev win0_0 : Pipeline.Window sig grid0 :=
  Pipeline.Window.ofSpec (Memref.whole main_v42) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S32x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v63) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S4096x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S32x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096x16 : Shape := ⟨2, ![4096, 16]⟩
abbrev S1024 : Shape := ⟨1, ![1024]⟩
abbrev S32x1024 : Shape := ⟨2, ![32, 1024]⟩
abbrev S4096x32 : Shape := ⟨2, ![4096, 32]⟩
abbrev S4096 : Shape := ⟨1, ![4096]⟩
abbrev S1024x4096 : Shape := ⟨2, ![1024, 4096]⟩
abbrev S1024x64 : Shape := ⟨2, ![1024, 64]⟩
abbrev S32x4096 : Shape := ⟨2, ![32, 4096]⟩
abbrev S1024x32 : Shape := ⟨2, ![1024, 32]⟩
abbrev S1x1024 : Shape := ⟨2, ![1, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S4096x16x64 : Shape := ⟨3, ![4096, 16, 64]⟩
abbrev S4096x16x1 : Shape := ⟨3, ![4096, 16, 1]⟩
abbrev S16384x4096 : Shape := ⟨2, ![16384, 4096]⟩
abbrev S16384x32 : Shape := ⟨2, ![16384, 32]⟩
abbrev S1x4096 : Shape := ⟨2, ![1, 4096]⟩
abbrev S16384x64x64 : Shape := ⟨3, ![16384, 64, 64]⟩
abbrev S16384x64 : Shape := ⟨2, ![16384, 64]⟩
abbrev S16384x64x1 : Shape := ⟨3, ![16384, 64, 1]⟩
abbrev S1024x64x64 : Shape := ⟨3, ![1024, 64, 64]⟩
abbrev S1024x64x1 : Shape := ⟨3, ![1024, 64, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .i32⟩
  | .hbm, ⟨2, _⟩ => ⟨S4096x16, .f32⟩
  | .hbm, ⟨3, _⟩ => ⟨S1024, .f32⟩
  | .hbm, ⟨4, _⟩ => ⟨S32x1024, .f32⟩
  | .hbm, ⟨5, _⟩ => ⟨S4096x32, .f32⟩
  | .hbm, ⟨6, _⟩ => ⟨S4096, .f32⟩
  | .hbm, ⟨7, _⟩ => ⟨S1024x4096, .i32⟩
  | .hbm, ⟨8, _⟩ => ⟨S1024x64, .f32⟩
  | .hbm, ⟨9, _⟩ => ⟨S4096, .f32⟩
  | .hbm, ⟨10, _⟩ => ⟨S32x4096, .f32⟩
  | .hbm, ⟨11, _⟩ => ⟨S1024x32, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x16x64, .f32⟩
  | .hbm, ⟨17, _⟩ => ⟨S16384x16x64, .f32⟩
  | .hbm, ⟨18, _⟩ => ⟨S_, .f32⟩
  | .hbm, ⟨19, _⟩ => ⟨S16384x16, .f32⟩
  | .hbm, ⟨20, _⟩ => ⟨S16384x16x1, .f32⟩
  | .hbm, ⟨21, _⟩ => ⟨S_, .f32⟩
  | .hbm, ⟨22, _⟩ => ⟨S16384x16x1, .f32⟩
  | .hbm, ⟨23, _⟩ => ⟨S16384x16x1, .f32⟩
  | .hbm, ⟨24, _⟩ => ⟨S_, .f32⟩
  | .hbm, ⟨25, _⟩ => ⟨S16384x16x1, .f32⟩
  | .hbm, ⟨26, _⟩ => ⟨S16384x16x1, .f32⟩
  | .hbm, ⟨27, _⟩ => ⟨S16384x16x64, .f32⟩
  | .hbm, ⟨28, _⟩ => ⟨S16384x16x64, .f32⟩
  | .hbm, ⟨29, _⟩ => ⟨S16384x16x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384x16x64, .f32⟩
  | .hbm, ⟨34, _⟩ => ⟨S16384x16x64, .f32⟩
  | .hbm, ⟨35, _⟩ => ⟨S_, .f32⟩
  | .hbm, ⟨36, _⟩ => ⟨S16384x16x64, .f32⟩
  | .hbm, ⟨37, _⟩ => ⟨S16384x16x64, .f32⟩
  | .hbm, ⟨38, _⟩ => ⟨S16384x16x64, .f32⟩
  | .hbm, ⟨39, _⟩ => ⟨S16384x16x64, .f32⟩
  | .hbm, ⟨40, _⟩ => ⟨S16384x1024, .f32⟩
  | .hbm, ⟨41, _⟩ => ⟨S4096x1024, .f32⟩
  | .hbm, ⟨42, _⟩ => ⟨S4096x16x64, .f32⟩
  | .hbm, ⟨43, _⟩ => ⟨S4096x16x1, .f32⟩
  | .hbm, ⟨44, _⟩ => ⟨S4096x16x64, .f32⟩
  | .hbm, ⟨45, _⟩ => ⟨S4096x16x64, .f32⟩
  | .hbm, ⟨46, _⟩ => ⟨S4096x1024, .f32⟩
  | .hbm, ⟨47, _⟩ => ⟨S16384x4096, .f32⟩
  | .hbm, ⟨48, _⟩ => ⟨S16384x32, .f32⟩
  | .hbm, ⟨49, _⟩ => ⟨S16384x4096, .f32⟩
  | .hbm, ⟨50, _⟩ => ⟨S16384x4096, .f32⟩
  | .hbm, ⟨51, _⟩ => ⟨S1x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384x4096, .f32⟩
  | .hbm, ⟨58, _⟩ => ⟨S16384x4096, .f32⟩
  | .hbm, ⟨59, _⟩ => ⟨S16384x4096, .f32⟩
  | .hbm, ⟨60, _⟩ => ⟨S_, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S_, .f32⟩
  | .hbm, ⟨65, _⟩ => ⟨S16384x4096, .f32⟩
  | .hbm, ⟨66, _⟩ => ⟨S16384x4096, .f32⟩
  | .hbm, ⟨67, _⟩ => ⟨S_, .f32⟩
  | .hbm, ⟨68, _⟩ => ⟨S16384x4096, .f32⟩
  | .hbm, ⟨69, _⟩ => ⟨S16384x4096, .f32⟩
  | .hbm, ⟨70, _⟩ => ⟨S16384x4096, .f32⟩
  | .hbm, ⟨71, _⟩ => ⟨S1x4096, .f32⟩
  | .hbm, ⟨72, _⟩ => ⟨S16384x4096, .f32⟩
  | .hbm, ⟨73, _⟩ => ⟨S16384x4096, .f32⟩
  | .hbm, ⟨74, _⟩ => ⟨S16384x64x64, .f32⟩
  | .hbm, ⟨75, _⟩ => ⟨S16384x64x64, .f32⟩
  | .hbm, ⟨76, _⟩ => ⟨S_, .f32⟩
  | .hbm, ⟨77, _⟩ => ⟨S16384x64, .f32⟩
  | .hbm, ⟨78, _⟩ => ⟨S16384x64x1, .f32⟩
  | .hbm, ⟨79, _⟩ => ⟨S_, .f32⟩
  | .hbm, ⟨80, _⟩ => ⟨S16384x64x1, .f32⟩
  | .hbm, ⟨81, _⟩ => ⟨S16384x64x1, .f32⟩
  | .hbm, ⟨82, _⟩ => ⟨S_, .f32⟩
  | .hbm, ⟨83, _⟩ => ⟨S16384x64x1, .f32⟩
  | .hbm, ⟨84, _⟩ => ⟨S16384x64x1, .f32⟩
  | .hbm, ⟨85, _⟩ => ⟨S16384x64x64, .f32⟩
  | .hbm, ⟨86, _⟩ => ⟨S16384x64x64, .f32⟩
  | .hbm, ⟨87, _⟩ => ⟨S16384x64x64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S16384x64x64, .f32⟩
  | .hbm, ⟨92, _⟩ => ⟨S16384x64x64, .f32⟩
  | .hbm, ⟨93, _⟩ => ⟨S_, .f32⟩
  | .hbm, ⟨94, _⟩ => ⟨S16384x64x64, .f32⟩
  | .hbm, ⟨95, _⟩ => ⟨S16384x64x64, .f32⟩
  | .hbm, ⟨96, _⟩ => ⟨S16384x64x64, .f32⟩
  | .hbm, ⟨97, _⟩ => ⟨S16384x64x64, .f32⟩
  | .hbm, ⟨98, _⟩ => ⟨S16384x4096, .f32⟩
  | .hbm, ⟨99, _⟩ => ⟨S1024x4096, .f32⟩
  | .hbm, ⟨100, _⟩ => ⟨S1024x64x64, .f32⟩
  | .hbm, ⟨101, _⟩ => ⟨S1024x64x1, .f32⟩
  | .hbm, ⟨102, _⟩ => ⟨S1024x64x64, .f32⟩
  | .hbm, ⟨103, _⟩ => ⟨S1024x64x64, .f32⟩
  | .hbm, ⟨104, _⟩ => ⟨S1024x4096, .f32⟩
  | .hbm, ⟨105, _⟩ => ⟨S16384x1024, .f32⟩
  | .hbm, ⟨106, _⟩ => ⟨S16384x32, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  reducesTo_S16384x16x64_S16384x16_d2 : S16384x16x64.ReducesTo [2] S16384x16
  h_S_ : 0 < S_.numel
  bcast_S16384x16_S16384x16x1_0_1 : S16384x16.BroadcastsInDim S16384x16x1 (![0, 1] : Fin 2 → Fin S16384x16x1.rank)
  bcast_S_S16384x16x1 : S_.BroadcastsInDim S16384x16x1 (![] : Fin 0 → Fin S16384x16x1.rank)
  bcast_S16384x16x1_S16384x16x64_0_1_2 : S16384x16x1.BroadcastsInDim S16384x16x64 (![0, 1, 2] : Fin 3 → Fin S16384x16x64.rank)
  bcast_S_S16384x16x64 : S_.BroadcastsInDim S16384x16x64 (![] : Fin 0 → Fin S16384x16x64.rank)
  shapeCasts_S16384x16x64_S16384x1024 : S16384x16x64.ShapeCasts S16384x1024
  shapeCasts_S4096x1024_S4096x16x64 : S4096x1024.ShapeCasts S4096x16x64
  bcast_S4096x16_S4096x16x1_0_1 : S4096x16.BroadcastsInDim S4096x16x1 (![0, 1] : Fin 2 → Fin S4096x16x1.rank)
  bcast_S4096x16x1_S4096x16x64_0_1_2 : S4096x16x1.BroadcastsInDim S4096x16x64 (![0, 1, 2] : Fin 3 → Fin S4096x16x64.rank)
  shapeCasts_S4096x16x64_S4096x1024 : S4096x16x64.ShapeCasts S4096x1024
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  shapeCasts_S16384x4096_S16384x64x64 : S16384x4096.ShapeCasts S16384x64x64
  reducesTo_S16384x64x64_S16384x64_d2 : S16384x64x64.ReducesTo [2] S16384x64
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S16384x64x1_S16384x64x64_0_1_2 : S16384x64x1.BroadcastsInDim S16384x64x64 (![0, 1, 2] : Fin 3 → Fin S16384x64x64.rank)
  bcast_S_S16384x64x64 : S_.BroadcastsInDim S16384x64x64 (![] : Fin 0 → Fin S16384x64x64.rank)
  shapeCasts_S16384x64x64_S16384x4096 : S16384x64x64.ShapeCasts S16384x4096
  shapeCasts_S1024x4096_S1024x64x64 : S1024x4096.ShapeCasts S1024x64x64
  bcast_S1024x64_S1024x64x1_0_1 : S1024x64.BroadcastsInDim S1024x64x1 (![0, 1] : Fin 2 → Fin S1024x64x1.rank)
  bcast_S1024x64x1_S1024x64x64_0_1_2 : S1024x64x1.BroadcastsInDim S1024x64x64 (![0, 1, 2] : Fin 3 → Fin S1024x64x64.rank)
  shapeCasts_S1024x64x64_S1024x4096 : S1024x64x64.ShapeCasts S1024x4096
  dot_S16384x1024_S4096x1024_S16384x4096_1_1_0_0_n_n_wf : DotDims.WF S16384x1024 S4096x1024 S16384x4096 [1] [1] [0] [0] [] []
  dot_S16384x1024_S32x1024_S16384x32_1_1_0_0_n_n_wf : DotDims.WF S16384x1024 S32x1024 S16384x32 [1] [1] [0] [0] [] []
  dot_S16384x32_S4096x32_S16384x4096_1_1_0_0_n_n_wf : DotDims.WF S16384x32 S4096x32 S16384x4096 [1] [1] [0] [0] [] []
  dot_S16384x4096_S1024x4096_S16384x1024_1_1_0_0_n_n_wf : DotDims.WF S16384x4096 S1024x4096 S16384x1024 [1] [1] [0] [0] [] []
  dot_S16384x4096_S32x4096_S16384x32_1_1_0_0_n_n_wf : DotDims.WF S16384x4096 S32x4096 S16384x32 [1] [1] [0] [0] [] []
  dot_S16384x32_S1024x32_S16384x1024_1_1_0_0_n_n_wf : DotDims.WF S16384x32 S1024x32 S16384x1024 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf
def dot_S16384x1024_S32x1024_S16384x32_1_1_0_0_n_n : DotDims S16384x1024 S32x1024 S16384x32 where
  lhsContracting := [1]
  rhsContracting := [1]
  lhsNonContracting := [0]
  rhsNonContracting := [0]
  lhsBatch := []
  rhsBatch := []
  wf := dot_S16384x1024_S32x1024_S16384x32_1_1_0_0_n_n_wf
def dot_S16384x32_S4096x32_S16384x4096_1_1_0_0_n_n : DotDims S16384x32 S4096x32 S16384x4096 where
  lhsContracting := [1]
  rhsContracting := [1]
  lhsNonContracting := [0]
  rhsNonContracting := [0]
  lhsBatch := []
  rhsBatch := []
  wf := dot_S16384x32_S4096x32_S16384x4096_1_1_0_0_n_n_wf
def dot_S16384x4096_S1024x4096_S16384x1024_1_1_0_0_n_n : DotDims S16384x4096 S1024x4096 S16384x1024 where
  lhsContracting := [1]
  rhsContracting := [1]
  lhsNonContracting := [0]
  rhsNonContracting := [0]
  lhsBatch := []
  rhsBatch := []
  wf := dot_S16384x4096_S1024x4096_S16384x1024_1_1_0_0_n_n_wf
def dot_S16384x4096_S32x4096_S16384x32_1_1_0_0_n_n : DotDims S16384x4096 S32x4096 S16384x32 where
  lhsContracting := [1]
  rhsContracting := [1]
  lhsNonContracting := [0]
  rhsNonContracting := [0]
  lhsBatch := []
  rhsBatch := []
  wf := dot_S16384x4096_S32x4096_S16384x32_1_1_0_0_n_n_wf
def dot_S16384x32_S1024x32_S16384x1024_1_1_0_0_n_n : DotDims S16384x32 S1024x32 S16384x1024 where
  lhsContracting := [1]
  rhsContracting := [1]
  lhsNonContracting := [0]
  rhsNonContracting := [0]
  lhsBatch := []
  rhsBatch := []
  wf := dot_S16384x32_S1024x32_S16384x1024_1_1_0_0_n_n_wf

class Facts : Prop extends Facts₀ where

variable [Facts]
-- ==== Proof.Spec.lean ====
/-
  The mathematics both programs compute, stated once over plain index types.

  One fused linear layer of the quantised MLP, at token `t` and output feature `o`:
      Σ_k xq[t,k]·w[o,k]  +  Σ_r (Σ_k x[t,k]·ld[r,k])·lu[o,r]  +  b[o]
  — the product of the quantised activations with the dequantised weight, the low-rank correction of the raw
  activations through rank `R`, and the bias. The first layer passes this through the tanh form of GELU, the second
  does not. Sums are finite sums on the extended reals (commutative, associative; no distributivity is used anywhere).
-/
import Idealize.ShloMosaic.PureOps.Ideal
import Idealize.ShloMosaic.Lib.ValueIdx

noncomputable section

namespace Cert.Spec

open Idealize.ShloMosaic Idealize.ShloMosaic.ValueIdx

/-- The tanh form of GELU on the extended reals, `x · (½ · (1 + tanh (c₂ · (x + c₁ · x³))))`, the cube grouped as
    `x · (x · x)` and the four constants kept as their binary32 words (the same words on both sides). -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The cube grouped the other way round gives the same GELU: multiplication on the extended reals is commutative. -/
theorem gelu_eq_left (x : EReal) :
    x * (Ideal.ofBits .f32 0x3F000000#32 * (Ideal.ofBits .f32 0x3F800000#32
      + Ideal.tanh (Ideal.ofBits .f32 0x3F4C422A#32 * (x + Ideal.ofBits .f32 0x3D372713#32 * ((x * x) * x))))) = gelu x := by
  unfold gelu; rw [mul_comm (x * x) x]

/-- One entry of the fused linear layer: row `t` of the quantised activations against row `o` of the weight, plus
    the rank-`R` correction of the raw activations, plus the bias. -/
def linAt {T D O R : Nat} (xq x : (⟨2, ![T, D]⟩ : Shape).Idx → EReal) (w : (⟨2, ![O, D]⟩ : Shape).Idx → EReal)
    (ld : (⟨2, ![R, D]⟩ : Shape).Idx → EReal) (lu : (⟨2, ![O, R]⟩ : Shape).Idx → EReal)
    (b : (⟨1, ![O]⟩ : Shape).Idx → EReal) (t : Fin T) (o : Fin O) : EReal :=
  (∑ k : Fin D, xq (ix2 t k) * w (ix2 o k) + ∑ r : Fin R, (∑ k : Fin D, x (ix2 t k) * ld (ix2 r k)) * lu (ix2 o r))
    + b (ix1 o)

/-- The layer as a whole array over tokens × output features. -/
def linArr {T D O R : Nat} (xq x : (⟨2, ![T, D]⟩ : Shape).Idx → EReal) (w : (⟨2, ![O, D]⟩ : Shape).Idx → EReal)
    (ld : (⟨2, ![R, D]⟩ : Shape).Idx → EReal) (lu : (⟨2, ![O, R]⟩ : Shape).Idx → EReal)
    (b : (⟨1, ![O]⟩ : Shape).Idx → EReal) : (⟨2, ![T, O]⟩ : Shape).Idx → EReal :=
  fun i => linAt xq x w ld lu b (i 0) (i 1)

theorem linArr_ix2 {T D O R : Nat} (xq x : (⟨2, ![T, D]⟩ : Shape).Idx → EReal) (w : (⟨2, ![O, D]⟩ : Shape).Idx → EReal)
    (ld : (⟨2, ![R, D]⟩ : Shape).Idx → EReal) (lu : (⟨2, ![O, R]⟩ : Shape).Idx → EReal)
    (b : (⟨1, ![O]⟩ : Shape).Idx → EReal) (t : Fin T) (o : Fin O) :
    linArr xq x w ld lu b (ix2 t o) = linAt xq x w ld lu b t o := rfl

/-- The first layer: GELU of the linear layer, entry by entry. -/
def geluArr {T O : Nat} (a : (⟨2, ![T, O]⟩ : Shape).Idx → EReal) : (⟨2, ![T, O]⟩ : Shape).Idx → EReal :=
  fun i => gelu (a i)

/-- Two arrays over tokens × features that agree at every pair of coordinates are equal. -/
theorem ext_ix2 {T O : Nat} {f g : (⟨2, ![T, O]⟩ : Shape).Idx → EReal} (h : ∀ (t : Fin T) (o : Fin O), f (ix2 t o) = g (ix2 t o)) :
    f = g := funext fun i => by rw [eq_ix2 i]; exact h _ _

end Cert.Spec

end
-- ==== Proof.Quant.lean ====
/-
  The second layer's simulated 4-bit quantisation of the activations, as ONE function of the activation array
  `h` (tokens × 4096 features) and the per-feature smoothing vector `s`:

    u      = h / s                                   (each feature divided by its smoothing factor)
    g      = u viewed as tokens × 64 groups × 64     (a row of 4096 is 64 consecutive groups of 64)
    step   = max (max_j |g[t,γ,j]|, 1e-6) / 7        (one step per token and group)
    q      = min (7, max (-8, round_even (g / step)))
    result = (q · step) viewed as tokens × 4096

  It is written with the host operations of the reference program, one per operation of the chain and in the same
  order, over any float model `F`; the constants are kept as their binary32 words. The two intermediate arrays that the
  chain reads twice (`g`, read by the magnitude and by the division; `step`, broadcast once to divide and once to
  multiply) are named, so that each is written once.
-/
import proofs.«178017_j4947802325522_1_alg».proof.ReferenceIdeal

noncomputable section

namespace Cert.ReferenceIdeal.Bridge

open Cert.ReferenceIdeal Idealize.ShloMosaic Idealize.SL.Sem

/-! ## The shape relations the chain's operations ask for (closed facts about literal shapes) -/

/-- A vector of 4096 features is a single row of 4096. -/
theorem featRow : S4096.BroadcastsInDim S1x4096 (![1] : Fin 1 → Fin S1x4096.rank) := by decide
/-- A single row of 4096 repeats down the 16384 tokens. -/
theorem featRows : S1x4096.BroadcastsInDim S16384x4096 (![0, 1] : Fin 2 → Fin S16384x4096.rank) := by decide
/-- 16384 × 4096 and 16384 × 64 × 64 hold the same number of entries. -/
theorem toGroups : S16384x4096.ShapeCasts S16384x64x64 := by decide
/-- Folding the last axis of 16384 × 64 × 64 leaves 16384 × 64. -/
theorem foldGroup : S16384x64x64.ReducesTo [2] S16384x64 := by decide
/-- A scalar holds one entry. -/
theorem scalarPos : 0 < S_.numel := by decide
/-- 16384 × 64 is 16384 × 64 × 1 with a trailing axis of size one. -/
theorem groupCol : S16384x64.BroadcastsInDim S16384x64x1 (![0, 1] : Fin 2 → Fin S16384x64x1.rank) := by decide
/-- A scalar fills 16384 × 64 × 1. -/
theorem scalarToGroupCol : S_.BroadcastsInDim S16384x64x1 (![] : Fin 0 → Fin S16384x64x1.rank) := by decide
/-- 16384 × 64 × 1 repeats along its trailing axis to 16384 × 64 × 64. -/
theorem groupColToGroups : S16384x64x1.BroadcastsInDim S16384x64x64 (![0, 1, 2] : Fin 3 → Fin S16384x64x64.rank) := by decide
/-- A scalar fills 16384 × 64 × 64. -/
theorem scalarToGroups : S_.BroadcastsInDim S16384x64x64 (![] : Fin 0 → Fin S16384x64x64.rank) := by decide
/-- 16384 × 64 × 64 and 16384 × 4096 hold the same number of entries. -/
theorem fromGroups : S16384x64x64.ShapeCasts S16384x4096 := by decide

variable {F : FTy → Type} [FloatOps F]

/-- `g`: the activations divided feature by feature by the smoothing vector, each row of 4096 viewed as 64 groups
    of 64. -/
def grouped (h : FVec F S16384x4096 .f32) (s : FVec F S4096 .f32) : FVec F S16384x64x64 .f32 :=
  shapeCast _ (Host.divf h (broadcastInDim S16384x4096 ![0, 1] featRows (broadcastInDim S1x4096 ![1] featRow s))) toGroups

/-- `step`: per token and group, the largest magnitude in the group (the fold starts from −∞), floored at the
    constant 1e-6 and divided by 7. -/
def step (h : FVec F S16384x4096 .f32) (s : FVec F S4096 .f32) : FVec F S16384x64x1 .f32 :=
  Host.divf
    (maximumf
      (broadcastInDim S16384x64x1 ![0, 1] groupCol
        (Host.reduce FloatOps.maximumf (Host.absf (grouped h s)) (constant S_ .f32 0xFF800000#32) foldGroup scalarPos))
      (broadcastInDim S16384x64x1 ![] scalarToGroupCol (constant S_ .f32 0x358637BD#32)))
    (broadcastInDim S16384x64x1 ![] scalarToGroupCol (constant S_ .f32 0x40E00000#32))

/-- The quantise–dequantise of the second layer's activations: `g / step` rounded to nearest even, clipped below at
    −8 and above at 7, multiplied back by `step`, and viewed again as tokens × 4096. -/
def qdq2 (h : FVec F S16384x4096 .f32) (s : FVec F S4096 .f32) : FVec F S16384x4096 .f32 :=
  shapeCast _
    (mulf
      (minimumf
        (broadcastInDim S16384x64x64 ![] scalarToGroups (id (constant S_ .f32 0x40E00000#32)))
        (maximumf
          (broadcastInDim S16384x64x64 ![] scalarToGroups (id (constant S_ .f32 0xC1000000#32)))
          (Host.roundeven (Host.divf (grouped h s) (broadcastInDim S16384x64x64 ![0, 1, 2] groupColToGroups (step h s))))))
      (broadcastInDim S16384x64x64 ![0, 1, 2] groupColToGroups (step h s)))
    fromGroups

end Cert.ReferenceIdeal.Bridge

end
-- ==== Proof.RefBridge.lean ====
/-
  The reference program, read entry by entry, is the specification's two fused linear layers.

  Layer 1: with xq the quantised activations and w the dequantised weight, entry (t, o) of the reference before its
  GELU is   Σ_k xq[t,k]·w[o,k] + Σ_r (Σ_k x[t,k]·ld[r,k])·lu[o,r] + b[o],   and the reference then applies the tanh form
  of GELU with the cube grouped from the left, (z·z)·z; multiplication on the extended reals is commutative, so this is
  the specification's GELU, whose cube is z·(z·z).
  Between the layers the hidden activations go through the second quantise–dequantise chain; the reference's operations
  there are that chain's, one for one.
  Layer 2: the same linear layer over the quantised hidden activations, the hidden activations, the second weight, the
  second low-rank pair and the second bias, with no GELU.

  Every product of the reference contracts the second axis of both operands, so no operand is transposed: the sums over
  the contracted axis are the specification's sums as they stand, and only the index maps have to be read off.
-/
import proofs.«178017_j4947802325522_1_alg».proof.Proof.Gen.ReferenceIdeal.Read
import proofs.«178017_j4947802325522_1_alg».proof.Proof.Spec
import proofs.«178017_j4947802325522_1_alg».proof.Proof.Quant

noncomputable section

namespace Cert.ReferenceIdeal.Bridge

open Cert.ReferenceIdeal Cert.ReferenceIdeal.Read Idealize.ShloMosaic Idealize.ShloMosaic.ValueIdx

/-! ## Where the contractions and the bias read, at a pair of coordinates

Each product of the reference contracts the second axis of both operands, so at the entry `(t, o)` of the result it
reads row `t` of the left operand and row `o` of the right one at the same column `k`; the bias, a vector repeated down
the tokens, is read at the feature `o`. The statements below say exactly this of the index maps the stage lemmas name. -/

section FirstLayer
variable (t : Fin 16384) (o : Fin 4096) (r : Fin 32) (k : Fin 1024)

theorem lidx24 : lidx_main_v24 (ix2 t o) k = ix2 t k := funext fun a => Fin.ext (by match a with | ⟨0, _⟩ => rfl | ⟨1, _⟩ => rfl)
theorem ridx24 : ridx_main_v24 (ix2 t o) k = ix2 o k := funext fun a => Fin.ext (by match a with | ⟨0, _⟩ => rfl | ⟨1, _⟩ => rfl)
theorem lidx25 : lidx_main_v25 (lidx_main_v26 (ix2 t o) r) k = ix2 t k := funext fun a => Fin.ext (by match a with | ⟨0, _⟩ => rfl | ⟨1, _⟩ => rfl)
theorem ridx25 : ridx_main_v25 (lidx_main_v26 (ix2 t o) r) k = ix2 r k := funext fun a => Fin.ext (by match a with | ⟨0, _⟩ => rfl | ⟨1, _⟩ => rfl)
theorem ridx26 : ridx_main_v26 (ix2 t o) r = ix2 o r := funext fun a => Fin.ext (by match a with | ⟨0, _⟩ => rfl | ⟨1, _⟩ => rfl)
theorem idx29 : idx_main_v28 (idx_main_v29 (ix2 t o)) = ix1 o := funext fun a => Fin.ext (by match a with | ⟨0, _⟩ => rfl)

end FirstLayer

section SecondLayer
variable (t : Fin 16384) (o : Fin 1024) (r : Fin 32) (k : Fin 4096)

theorem lidx68 : lidx_main_v68 (ix2 t o) k = ix2 t k := funext fun a => Fin.ext (by match a with | ⟨0, _⟩ => rfl | ⟨1, _⟩ => rfl)
theorem ridx68 : ridx_main_v68 (ix2 t o) k = ix2 o k := funext fun a => Fin.ext (by match a with | ⟨0, _⟩ => rfl | ⟨1, _⟩ => rfl)
theorem lidx69 : lidx_main_v69 (lidx_main_v70 (ix2 t o) r) k = ix2 t k := funext fun a => Fin.ext (by match a with | ⟨0, _⟩ => rfl | ⟨1, _⟩ => rfl)
theorem ridx69 : ridx_main_v69 (lidx_main_v70 (ix2 t o) r) k = ix2 r k := funext fun a => Fin.ext (by match a with | ⟨0, _⟩ => rfl | ⟨1, _⟩ => rfl)
theorem ridx70 : ridx_main_v70 (ix2 t o) r = ix2 o r := funext fun a => Fin.ext (by match a with | ⟨0, _⟩ => rfl | ⟨1, _⟩ => rfl)
theorem idx73 : idx_main_v72 (idx_main_v73 (ix2 t o)) = ix1 o := funext fun a => Fin.ext (by match a with | ⟨0, _⟩ => rfl)

end SecondLayer

/-! ## The first layer -/

/-- Before the GELU, the first layer of the reference is the fused linear layer of the quantised activations, the raw
    activations, the dequantised weight, the two low-rank factors and the bias: entry `(t, o)` is the two products'
    sums over the contracted axis, added, plus the bias at `o`. -/
theorem lin1 (x0 : FVec Ideal S16384x1024 .f32) (x1 : IVec S4096x1024 32) (x2 : FVec Ideal S4096x16 .f32) (x3 : FVec Ideal S1024 .f32) (x4 : FVec Ideal S32x1024 .f32) (x5 : FVec Ideal S4096x32 .f32) (x6 : FVec Ideal S4096 .f32) :
    val_main_v30 (F := Ideal) x0 x1 x2 x3 x4 x5 x6
      = Spec.linArr (val_main_v17 (F := Ideal) x0 x3) x0 (val_main_v23 (F := Ideal) x1 x2) x4 x5 x6 := by
  refine Spec.ext_ix2 fun t o => ?_
  rw [val_main_v30_apply, val_main_v27_apply, val_main_v24_apply, val_main_v26_apply, val_main_v29_apply,
    val_main_v28_apply, Spec.linArr_ix2]
  generalize val_main_v17 (F := Ideal) x0 x3 = XQ
  generalize val_main_v23 (F := Ideal) x1 x2 = W
  simp only [val_main_v25_apply, lidx24, ridx24, lidx25, ridx25, ridx26, idx29]
  rfl

/-- The first layer of the reference is the GELU of that linear layer: with `z` the linear layer's entry, the chain
    computes `z · (½ · (1 + tanh (c₂ · (z + c₁ · ((z · z) · z)))))`, the cube grouped from the left. -/
theorem fc1 (x0 : FVec Ideal S16384x1024 .f32) (x1 : IVec S4096x1024 32) (x2 : FVec Ideal S4096x16 .f32) (x3 : FVec Ideal S1024 .f32) (x4 : FVec Ideal S32x1024 .f32) (x5 : FVec Ideal S4096x32 .f32) (x6 : FVec Ideal S4096 .f32) :
    val_main_v43 (F := Ideal) x0 x1 x2 x3 x4 x5 x6 = Spec.geluArr (Spec.linArr (val_main_v17 (F := Ideal) x0 x3) x0 (val_main_v23 (F := Ideal) x1 x2) x4 x5 x6) := by
  funext i
  rw [val_main_v43_apply, val_main_v42_apply, val_main_v41_apply, val_main_cst_7_apply, val_main_v40_apply,
    val_main_v39_apply, val_main_cst_6_apply, val_main_v38_apply, val_main_v37_apply, val_main_v36_apply,
    val_main_cst_5_apply, val_main_v35_apply, val_main_v34_apply, val_main_v33_apply, val_main_cst_4_apply,
    val_main_v32_apply, val_main_v31_apply, lin1]
  exact Spec.gelu_eq_left _

/-! ## Between the layers -/

/-- The quantised input of the second layer is the quantise–dequantise chain applied to the first layer's output and
    the second smoothing vector: the reference's operations from the broadcast of the smoothing vector to the final
    reshape are the chain's, one for one. -/
theorem qdq2_eq (x0 : FVec Ideal S16384x1024 .f32) (x1 : IVec S4096x1024 32) (x2 : FVec Ideal S4096x16 .f32) (x3 : FVec Ideal S1024 .f32) (x4 : FVec Ideal S32x1024 .f32) (x5 : FVec Ideal S4096x32 .f32) (x6 x9 : FVec Ideal S4096 .f32) :
    val_main_v61 (F := Ideal) x0 x1 x2 x3 x4 x5 x6 x9 = qdq2 (val_main_v43 (F := Ideal) x0 x1 x2 x3 x4 x5 x6) x9 := by
  unfold val_main_v61 val_main_v60 val_main_v59 val_main_v58 val_main_call3_v4 val_main_call3_v3 val_main_cst_12
    val_main_call3_v2 val_main_call3_v1 val_main_call3_v0 val_main_cst_11 val_main_v57 val_main_v56 val_main_v55
    val_main_v54 val_main_v53 val_main_cst_10 val_main_v52 val_main_v51 val_main_cst_9 val_main_v50 val_main_v49
    val_main_cst_8 val_main_v48 val_main_v47 val_main_v46 val_main_v45 val_main_v44 qdq2 step grouped
  rfl

/-! ## The second layer -/

/-- The second layer of the reference is the fused linear layer of the quantised hidden activations, the hidden
    activations themselves, the second dequantised weight, the second pair of low-rank factors and the second bias. -/
theorem fc2 (x0 : FVec Ideal S16384x1024 .f32) (x1 : IVec S4096x1024 32) (x2 : FVec Ideal S4096x16 .f32) (x3 : FVec Ideal S1024 .f32) (x4 : FVec Ideal S32x1024 .f32) (x5 : FVec Ideal S4096x32 .f32) (x6 : FVec Ideal S4096 .f32) (x7 : IVec S1024x4096 32) (x8 : FVec Ideal S1024x64 .f32) (x9 : FVec Ideal S4096 .f32) (x10 : FVec Ideal S32x4096 .f32) (x11 : FVec Ideal S1024x32 .f32) (x12 : FVec Ideal S1024 .f32) :
    val_main_v74 (F := Ideal) x0 x1 x2 x3 x4 x5 x6 x7 x8 x9 x10 x11 x12 = Spec.linArr (val_main_v61 (F := Ideal) x0 x1 x2 x3 x4 x5 x6 x9) (val_main_v43 (F := Ideal) x0 x1 x2 x3 x4 x5 x6) (val_main_v67 (F := Ideal) x7 x8) x10 x11 x12 := by
  refine Spec.ext_ix2 fun t o => ?_
  rw [val_main_v74_apply, val_main_v71_apply, val_main_v68_apply, val_main_v70_apply, val_main_v73_apply,
    val_main_v72_apply, Spec.linArr_ix2]
  simp only [val_main_v69_apply]
  generalize val_main_v61 (F := Ideal) x0 x1 x2 x3 x4 x5 x6 x9 = XQ
  generalize val_main_v43 (F := Ideal) x0 x1 x2 x3 x4 x5 x6 = X
  generalize val_main_v67 (F := Ideal) x7 x8 = W
  simp only [lidx68, ridx68, lidx69, ridx69, ridx70, idx73]
  rfl

end Cert.ReferenceIdeal.Bridge

end
-- ==== Proof.Region0.lean ====
/-
  The first layer's region, read as mathematics.

  The region walks the 16384 token rows in 64 blocks of 256. At block `t` its body takes the quantised and the raw
  activations' rows `256 t … 256 t + 255`, the whole transposed weight, the two whole transposed low-rank factors and the
  whole bias, forms three products into zero accumulators — activations × weight, raw activations × down factor, that
  result × up factor —, adds them and the bias, and stores the tanh form of GELU of the sum. Read entry by entry on the
  extended reals, a product into a zero accumulator is a finite sum over the contracted axis, a transposed operand read at
  `(k, q)` is the operand at `(q, k)`, and the stored value at `(p, q)` of block `t` is GELU of the fused linear layer at
  token `256 t + p`, feature `q`. The 64 blocks tile the output array (row `r` lies in block `r / 256`), so after the run
  the array is GELU of the linear layer everywhere.
-/
import proofs.«178017_j4947802325522_1_alg».proof.Proof.Gen.KernelIdeal.Frame
import proofs.«178017_j4947802325522_1_alg».proof.Proof.Spec
import Idealize.ShloMosaic.Lib.Pipeline.Value
import Idealize.ShloMosaic.Lib.ValueLayout
import Idealize.ShloMosaic.PureOps.Ideal.Laws

noncomputable section

namespace Cert.KernelIdeal.Region0
open Cert.KernelIdeal Cert.KernelIdeal.Gen Idealize.ShloMosaic Idealize.ShloMosaic.TcCoe Idealize.SL.Sem
open Idealize.ShloMosaic.ValueIdx

/-! ### The weight product: a block of 256 rows against the whole transposed weight -/

theorem lhsW_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhsW_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhsW_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhsW_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Into the zero accumulator the product at row `p`, column `q` is the sum over the contracted axis. -/
theorem mmW {φ₁ φ₂ : FTy} (a : FVec Ideal S256x1024 φ₁) (b : FVec Ideal S1024x4096 φ₂) (p : Fin 256) (q : Fin 4096) :
    FloatOps.matmul dot_S256x1024_S1024x4096_S256x4096_1_0_0_1_n_n none a b (constant S256x4096 .f32 0x00000000#32) (ix2 p q)
      = ∑ k : Fin 1024, a (ix2 p k) * b (ix2 k q) := by
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p q) ((ValueIdx.contrEquiv1 dot_S256x1024_S1024x4096_S256x4096_1_0_0_1_n_n 1024 rfl rfl).symm k) = ix2 p k := funext fun a => Fin.ext (by
    match a with
    | ⟨0, _⟩ => exact lhsW_0 _ _
    | ⟨1, _⟩ => exact (lhsW_1 _ _).trans hk)
  have er : dot_S256x1024_S1024x4096_S256x4096_1_0_0_1_n_n.rhsIdx (ix2 p q) ((ValueIdx.contrEquiv1 dot_S256x1024_S1024x4096_S256x4096_1_0_0_1_n_n 1024 rfl rfl).symm k) = ix2 k q := funext fun a => Fin.ext (by
    match a with
    | ⟨0, _⟩ => exact (rhsW_0 _ _).trans hk
    | ⟨1, _⟩ => exact rhsW_1 _ _)
  rw [el, er]

/-! ### The low-rank down projection -/

theorem lhsD_0 (i : S256x32.Idx) (q : dot_S256x1024_S1024x32_S256x32_1_0_0_1_n_n.contr.Idx) :
    (dot_S256x1024_S1024x32_S256x32_1_0_0_1_n_n.lhsIdx i q 0).val = (i 0).val := by
  unfold DotDims.lhsIdx
  rw [dif_neg (show ¬(0 : Fin S256x1024.rank) ∈ dot_S256x1024_S1024x32_S256x32_1_0_0_1_n_n.lhsBatch by decide), dif_pos (show (0 : Fin S256x1024.rank) ∈ dot_S256x1024_S1024x32_S256x32_1_0_0_1_n_n.lhsNonContracting by decide)]
  rfl
theorem lhsD_1 (i : S256x32.Idx) (q : dot_S256x1024_S1024x32_S256x32_1_0_0_1_n_n.contr.Idx) :
    (dot_S256x1024_S1024x32_S256x32_1_0_0_1_n_n.lhsIdx i q 1).val = (q ⟨0, by decide⟩).val :=
  dot_S256x1024_S1024x32_S256x32_1_0_0_1_n_n.lhsIdx_val_of_single rfl i q
theorem rhsD_0 (i : S256x32.Idx) (q : dot_S256x1024_S1024x32_S256x32_1_0_0_1_n_n.contr.Idx) :
    (dot_S256x1024_S1024x32_S256x32_1_0_0_1_n_n.rhsIdx i q 0).val = (q ⟨0, by decide⟩).val :=
  dot_S256x1024_S1024x32_S256x32_1_0_0_1_n_n.rhsIdx_val_of_single rfl i q
theorem rhsD_1 (i : S256x32.Idx) (q : dot_S256x1024_S1024x32_S256x32_1_0_0_1_n_n.contr.Idx) :
    (dot_S256x1024_S1024x32_S256x32_1_0_0_1_n_n.rhsIdx i q 1).val = (i 1).val := by
  unfold DotDims.rhsIdx
  rw [dif_neg (show ¬(1 : Fin S1024x32.rank) ∈ dot_S256x1024_S1024x32_S256x32_1_0_0_1_n_n.rhsBatch by decide), dif_pos (show (1 : Fin S1024x32.rank) ∈ dot_S256x1024_S1024x32_S256x32_1_0_0_1_n_n.rhsNonContracting by decide)]
  rfl

/-- Into the zero accumulator the product at row `p`, column `q` is the sum over the contracted axis. -/
theorem mmD {φ₁ φ₂ : FTy} (a : FVec Ideal S256x1024 φ₁) (b : FVec Ideal S1024x32 φ₂) (p : Fin 256) (q : Fin 32) :
    FloatOps.matmul dot_S256x1024_S1024x32_S256x32_1_0_0_1_n_n none a b (constant S256x32 .f32 0x00000000#32) (ix2 p q)
      = ∑ k : Fin 1024, a (ix2 p k) * b (ix2 k q) := by
  rw [Ideal.matmul_constant_zero_apply, ← Equiv.sum_comp (ValueIdx.contrEquiv1 dot_S256x1024_S1024x32_S256x32_1_0_0_1_n_n 1024 rfl rfl).symm]
  refine Finset.sum_congr rfl fun k _ => ?_
  have hk := ValueIdx.contrEquiv1_symm_val dot_S256x1024_S1024x32_S256x32_1_0_0_1_n_n 1024 rfl rfl k
  have el : dot_S256x1024_S1024x32_S256x32_1_0_0_1_n_n.lhsIdx (ix2 p q) ((ValueIdx.contrEquiv1 dot_S256x1024_S1024x32_S256x32_1_0_0_1_n_n 1024 rfl rfl).symm k) = ix2 p k := funext fun a => Fin.ext (by
    match a with
    | ⟨0, _⟩ => exact lhsD_0 _ _
    | ⟨1, _⟩ => exact (lhsD_1 _ _).trans hk)
  have er : dot_S256x1024_S1024x32_S256x32_1_0_0_1_n_n.rhsIdx (ix2 p q) ((ValueIdx.contrEquiv1 dot_S256x1024_S1024x32_S256x32_1_0_0_1_n_n 1024 rfl rfl).symm k) = ix2 k q := funext fun a => Fin.ext (by
    match a with
    | ⟨0, _⟩ => exact (rhsD_0 _ _).trans hk
    | ⟨1, _⟩ => exact rhsD_1 _ _)
  rw [el, er]

/-! ### The low-rank up projection -/

theorem lhsU_0 (i : S256x4096.Idx) (q : dot_S256x32_S32x4096_S256x4096_1_0_0_1_n_n.contr.Idx) :
    (dot_S256x32_S32x4096_S256x4096_1_0_0_1_n_n.lhsIdx i q 0).val = (i 0).val := by
  unfold DotDims.lhsIdx
  rw [dif_neg (show ¬(0 : Fin S256x32.rank) ∈ dot_S256x32_S32x4096_S256x4096_1_0_0_1_n_n.lhsBatch by decide), dif_pos (show (0 : Fin S256x32.rank) ∈ dot_S256x32_S32x4096_S256x4096_1_0_0_1_n_n.lhsNonContracting by decide)]
  rfl
theorem lhsU_1 (i : S256x4096.Idx) (q : dot_S256x32_S32x4096_S256x4096_1_0_0_1_n_n.contr.Idx) :
    (dot_S256x32_S32x4096_S256x4096_1_0_0_1_n_n.lhsIdx i q 1).val = (q ⟨0, by decide⟩).val :=
  dot_S256x32_S32x4096_S256x4096_1_0_0_1_n_n.lhsIdx_val_of_single rfl i q
theorem rhsU_0 (i : S256x4096.Idx) (q : dot_S256x32_S32x4096_S256x4096_1_0_0_1_n_n.contr.Idx) :
    (dot_S256x32_S32x4096_S256x4096_1_0_0_1_n_n.rhsIdx i q 0).val = (q ⟨0, by decide⟩).val :=
  dot_S256x32_S32x4096_S256x4096_1_0_0_1_n_n.rhsIdx_val_of_single rfl i q
theorem rhsU_1 (i : S256x4096.Idx) (q : dot_S256x32_S32x4096_S256x4096_1_0_0_1_n_n.contr.Idx) :
    (dot_S256x32_S32x4096_S256x4096_1_0_0_1_n_n.rhsIdx i q 1).val = (i 1).val := by
  unfold DotDims.rhsIdx
  rw [dif_neg (show ¬(1 : Fin S32x4096.rank) ∈ dot_S256x32_S32x4096_S256x4096_1_0_0_1_n_n.rhsBatch by decide), dif_pos (show (1 : Fin S32x4096.rank) ∈ dot_S256x32_S32x4096_S256x4096_1_0_0_1_n_n.rhsNonContracting by decide)]
  rfl

/-- Into the zero accumulator the product at row `p`, column `q` is the sum over the contracted axis. -/
theorem mmU {φ₁ φ₂ : FTy} (a : FVec Ideal S256x32 φ₁) (b : FVec Ideal S32x4096 φ₂) (p : Fin 256) (q : Fin 4096) :
    FloatOps.matmul dot_S256x32_S32x4096_S256x4096_1_0_0_1_n_n none a b (constant S256x4096 .f32 0x00000000#32) (ix2 p q)
      = ∑ k : Fin 32, a (ix2 p k) * b (ix2 k q) := by
  rw [Ideal.matmul_constant_zero_apply, ← Equiv.sum_comp (ValueIdx.contrEquiv1 dot_S256x32_S32x4096_S256x4096_1_0_0_1_n_n 32 rfl rfl).symm]
  refine Finset.sum_congr rfl fun k _ => ?_
  have hk := ValueIdx.contrEquiv1_symm_val dot_S256x32_S32x4096_S256x4096_1_0_0_1_n_n 32 rfl rfl k
  have el : dot_S256x32_S32x4096_S256x4096_1_0_0_1_n_n.lhsIdx (ix2 p q) ((ValueIdx.contrEquiv1 dot_S256x32_S32x4096_S256x4096_1_0_0_1_n_n 32 rfl rfl).symm k) = ix2 p k := funext fun a => Fin.ext (by
    match a with
    | ⟨0, _⟩ => exact lhsU_0 _ _
    | ⟨1, _⟩ => exact (lhsU_1 _ _).trans hk)
  have er : dot_S256x32_S32x4096_S256x4096_1_0_0_1_n_n.rhsIdx (ix2 p q) ((ValueIdx.contrEquiv1 dot_S256x32_S32x4096_S256x4096_1_0_0_1_n_n 32 rfl rfl).symm k) = ix2 k q := funext fun a => Fin.ext (by
    match a with
    | ⟨0, _⟩ => exact (rhsU_0 _ _).trans hk
    | ⟨1, _⟩ => exact rhsU_1 _ _)
  rw [el, er]

/-! ### One block of the layer: the body's arithmetic at row `p`, column `q` -/

/-- The body's stored value at `(p, q)`: GELU of the weight product plus the low-rank correction plus the bias, over the
    loaded blocks (the activations by rows, the three weight-side operands already transposed). -/
theorem pay_apply (x0 : Vec Ideal S256x1024 .bf16) (x2 : Vec Ideal S1024x4096 .bf16) (x1 : Vec Ideal S256x1024 .bf16)
    (x3 : Vec Ideal S1024x32 .bf16) (x4 : Vec Ideal S32x4096 .bf16) (x5 : Vec Ideal S4096 .f32) (p : Fin 256) (q : Fin 4096) :
    k0_pay1 x0 x2 x1 x3 x4 x5 (ix2 p q)
      = Spec.gelu ((∑ k : Fin 1024, x0 (ix2 p k) * x2 (ix2 k q)
          + ∑ r : Fin 32, (∑ k : Fin 1024, x1 (ix2 p k) * x3 (ix2 k r)) * x4 (ix2 r q)) + x5 (ix1 q)) := by
  unfold k0_pay1
  simp only [shapeCast_self]
  show Spec.gelu ((FloatOps.matmul (F := Ideal) dot_S256x1024_S1024x4096_S256x4096_1_0_0_1_n_n none x0 x2 (constant S256x4096 .f32 0x00000000#32) (ix2 p q)
      + FloatOps.matmul (F := Ideal) dot_S256x32_S32x4096_S256x4096_1_0_0_1_n_n none
          (truncf (F := Ideal) .bf16 (FloatOps.matmul (F := Ideal) dot_S256x1024_S1024x32_S256x32_1_0_0_1_n_n none x1 x3 (constant S256x32 .f32 0x00000000#32)) bitsLt_bf16_f32)
          x4 (constant S256x4096 .f32 0x00000000#32) (ix2 p q))
      + broadcastTo S256x4096 (shapeCast S1x4096 x5 shapeCasts_S4096_S1x4096) broadcasts_S1x4096_S256x4096 (ix2 p q)) = _
  rw [mmW, mmU, broadcastTo_1b_ab_apply, shapeCast_a_1a_apply]
  simp only [truncf_apply, mmD]

/-! ### Where each window's block sits in its array -/

theorem zeros2 : (![0, 0] : Fin 2 → Nat) = fun _ => 0 := funext fun a => by fin_cases a <;> rfl
theorem zeros1 : (![0] : Fin 1 → Nat) = fun _ => 0 := funext fun a => by fin_cases a; rfl

/-- The block indices at grid point `t`: the two activation windows and the output move down the rows with `t`, the three
    weight-side windows and the bias stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

section Reads
variable (V : (c : Dev nD) → (b : Ref sig .tc) → Buf (Elt Ideal) ((c : Thread nD τ).loc b)) (c : Dev nD) (t : Fin cfg0.N)

/-- Row `p` of the quantised activations' block at point `t` is row `256 t + p` of the array. -/
theorem rd_xq (XQ : FVec Ideal S16384x1024 .f32) (h0 : V c main_v42 = XQ) (p : Fin 256) (k : Fin 1024) (i0 : Fin 16384)
    (hi0 : i0.val = t.val * 256 + p.val) :
    (iblk0 V c 0 t : Vec Ideal S256x1024 .bf16) (ix2 p k) = XQ (ix2 i0 k) := by
  obtain ⟨e0, e1, -⟩ := idx_facts t
  subst h0
  unfold iblk0
  rw [View.read_apply]
  show V c main_v42 _ = V c main_v42 _
  congr 1
  funext a; apply Fin.ext
  match a with
  | ⟨0, _⟩ => show win0_0.index t (0 : Fin 2) * 256 + 1 * p.val = i0.val; rw [e0, hi0]; omega
  | ⟨1, _⟩ => show win0_0.index t (1 : Fin 2) * 1024 + 1 * k.val = k.val; rw [e1]; omega

/-- Row `p` of the raw activations' block at point `t` is row `256 t + p` of the array. -/
theorem rd_x (X : FVec Ideal S16384x1024 .f32) (h1 : V c main_v43 = X) (p : Fin 256) (k : Fin 1024) (i0 : Fin 16384)
    (hi0 : i0.val = t.val * 256 + p.val) :
    (iblk0 V c 1 t : Vec Ideal S256x1024 .bf16) (ix2 p k) = X (ix2 i0 k) := by
  obtain ⟨-, -, e0, e1, -⟩ := idx_facts t
  subst h1
  unfold iblk0
  rw [View.read_apply]
  show V c main_v43 _ = V c main_v43 _
  congr 1
  funext a; apply Fin.ext
  match a with
  | ⟨0, _⟩ => show win0_1.index t (0 : Fin 2) * 256 + 1 * p.val = i0.val; rw [e0, hi0]; omega
  | ⟨1, _⟩ => show win0_1.index t (1 : Fin 2) * 1024 + 1 * k.val = k.val; rw [e1]; omega

/-- The weight window holds the whole transposed weight: its entry `(k, q)` is the weight's `(q, k)`. -/
theorem rd_w (W : FVec Ideal S4096x1024 .f32)
    (h2 : V c main_v7 = transpose S1024x4096 [1, 0] W transposes_S4096x1024_S1024x4096_1_0) (k : Fin 1024) (q : Fin 4096) :
    (iblk0 V c 2 t : Vec Ideal S1024x4096 .bf16) (ix2 k q) = W (ix2 q k) := by
  obtain ⟨-, -, -, -, e0, e1, -⟩ := idx_facts t
  have e : (iblk0 V c 2 t : Vec Ideal S1024x4096 .bf16) (ix2 k q) = (V c main_v7 : S1024x4096.Idx → EReal) (ix2 k q) := by
    unfold iblk0
    rw [View.read_apply]
    show V c main_v7 _ = V c main_v7 _
    congr 1
    funext a; apply Fin.ext
    match a with
    | ⟨0, _⟩ => show win0_2.index t (0 : Fin 2) * 1024 + 1 * k.val = k.val; rw [e0]; omega
    | ⟨1, _⟩ => show win0_2.index t (1 : Fin 2) * 4096 + 1 * q.val = q.val; rw [e1]; omega
  rw [e, h2]
  exact transpose_ix2_apply W _ k q

/-- The down-projection window holds the whole transposed factor: its entry `(k, r)` is the factor's `(r, k)`. -/
theorem rd_ld (LD : FVec Ideal S32x1024 .f32)
    (h3 : V c main_v17 = transpose S1024x32 [1, 0] LD transposes_S32x1024_S1024x32_1_0) (k : Fin 1024) (r : Fin 32) :
    (iblk0 V c 3 t : Vec Ideal S1024x32 .bf16) (ix2 k r) = LD (ix2 r k) := by
  obtain ⟨-, -, -, -, -, -, e0, e1, -⟩ := idx_facts t
  have e : (iblk0 V c 3 t : Vec Ideal S1024x32 .bf16) (ix2 k r) = (V c main_v17 : S1024x32.Idx → EReal) (ix2 k r) := by
    unfold iblk0
    rw [View.read_apply]
    show V c main_v17 _ = V c main_v17 _
    congr 1
    funext a; apply Fin.ext
    match a with
    | ⟨0, _⟩ => show win0_3.index t (0 : Fin 2) * 1024 + 1 * k.val = k.val; rw [e0]; omega
    | ⟨1, _⟩ => show win0_3.index t (1 : Fin 2) * 32 + 1 * r.val = r.val; rw [e1]; omega
  rw [e, h3]
  exact transpose_ix2_apply LD _ k r

/-- The up-projection window holds the whole transposed factor: its entry `(r, q)` is the factor's `(q, r)`. -/
theorem rd_lu (LU : FVec Ideal S4096x32 .f32)
    (h4 : V c main_v19 = transpose S32x4096 [1, 0] LU transposes_S4096x32_S32x4096_1_0) (r : Fin 32) (q : Fin 4096) :
    (iblk0 V c 4 t : Vec Ideal S32x4096 .bf16) (ix2 r q) = LU (ix2 q r) := by
  obtain ⟨-, -, -, -, -, -, -, -, e0, e1, -⟩ := idx_facts t
  have e : (iblk0 V c 4 t : Vec Ideal S32x4096 .bf16) (ix2 r q) = (V c main_v19 : S32x4096.Idx → EReal) (ix2 r q) := by
    unfold iblk0
    rw [View.read_apply]
    show V c main_v19 _ = V c main_v19 _
    congr 1
    funext a; apply Fin.ext
    match a with
    | ⟨0, _⟩ => show win0_4.index t (0 : Fin 2) * 32 + 1 * r.val = r.val; rw [e0]; omega
    | ⟨1, _⟩ => show win0_4.index t (1 : Fin 2) * 4096 + 1 * q.val = q.val; rw [e1]; omega
  rw [e, h4]
  exact transpose_ix2_apply LU _ r q

/-- The bias window holds the whole bias. -/
theorem rd_b (B : FVec Ideal S4096 .f32) (h5 : V c main_arg6 = B) (q : Fin 4096) :
    (iblk0 V c 5 t : Vec Ideal S4096 .f32) (ix1 q) = B (ix1 q) := by
  obtain ⟨-, -, -, -, -, -, -, -, -, -, e0, -⟩ := idx_facts t
  subst h5
  unfold iblk0
  rw [View.read_apply]
  show V c main_arg6 _ = V c main_arg6 _
  congr 1
  funext a; apply Fin.ext
  match a with
  | ⟨0, _⟩ => show win0_5.index t (0 : Fin 1) * 4096 + 1 * q.val = q.val; rw [e0]; omega

/-- What point `t` stores at `(p, q)` of its block is the layer at row `256 t + p`, column `q`. -/
theorem block_eq (XQ X : FVec Ideal S16384x1024 .f32) (W : FVec Ideal S4096x1024 .f32) (LD : FVec Ideal S32x1024 .f32)
    (LU : FVec Ideal S4096x32 .f32) (B : FVec Ideal S4096 .f32)
    (h0 : V c main_v42 = XQ) (h1 : V c main_v43 = X)
    (h2 : V c main_v7 = transpose S1024x4096 [1, 0] W transposes_S4096x1024_S1024x4096_1_0)
    (h3 : V c main_v17 = transpose S1024x32 [1, 0] LD transposes_S32x1024_S1024x32_1_0)
    (h4 : V c main_v19 = transpose S32x4096 [1, 0] LU transposes_S4096x32_S32x4096_1_0)
    (h5 : V c main_arg6 = B) (p : Fin 256) (q : Fin 4096) (i0 : Fin 16384) (hi0 : i0.val = t.val * 256 + p.val) :
    k0_pay1 (iblk0 V c 0 t) (iblk0 V c 2 t) (iblk0 V c 1 t) (iblk0 V c 3 t) (iblk0 V c 4 t) (iblk0 V c 5 t) (ix2 p q)
      = Spec.geluArr (Spec.linArr XQ X W LD LU B) (ix2 i0 q) := by
  refine (pay_apply (iblk0 V c 0 t) (iblk0 V c 2 t) (iblk0 V c 1 t) (iblk0 V c 3 t) (iblk0 V c 4 t) (iblk0 V c 5 t) p q).trans ?_
  show Spec.gelu _ = Spec.gelu (Spec.linAt XQ X W LD LU B i0 q)
  unfold Spec.linAt
  simp only [rd_xq V c t XQ h0 p _ i0 hi0, rd_x V c t X h1 p _ i0 hi0, rd_w V c t W h2, rd_ld V c t LD h3, rd_lu V c t LU h4,
    rd_b V c t B h5]
end Reads

/-! ### From blocks to the array -/

section Array
variable (V : (c : Dev nD) → (b : Ref sig .tc) → Buf (Elt Ideal) ((c : Thread nD τ).loc b)) (c : Dev nD)

/-- What point `t` writes back is block `t` of the layer's array. -/
theorem flushed_eq (t : Fin cfg0.N)
    (XQ X : FVec Ideal S16384x1024 .f32) (W : FVec Ideal S4096x1024 .f32) (LD : FVec Ideal S32x1024 .f32)
    (LU : FVec Ideal S4096x32 .f32) (B : FVec Ideal S4096 .f32)
    (h0 : V c main_v42 = XQ) (h1 : V c main_v43 = X)
    (h2 : V c main_v7 = transpose S1024x4096 [1, 0] W transposes_S4096x1024_S1024x4096_1_0)
    (h3 : V c main_v17 = transpose S1024x32 [1, 0] LD transposes_S32x1024_S1024x32_1_0)
    (h4 : V c main_v19 = transpose S32x4096 [1, 0] LU transposes_S4096x32_S32x4096_1_0)
    (h5 : V c main_arg6 = B) :
    (dat0 V c).flushed 6 t = ((cfg0.win 6).blk t).view.read (Elt Ideal) (Spec.geluArr (Spec.linArr XQ X W LD LU B)) := by
  show (cfg0.win 6).cut (grid0.coords t) ((dat0 V c).after 6 t) = _
  rw [after0_6]
  unfold out0_6
  rw [View.canon_unit_zero zeros2]
  simp only [View.ld_unit_zero (S := S256x1024) zeros2, View.ld_unit_zero (S := S1024x4096) zeros2,
    View.ld_unit_zero (S := S1024x32) zeros2, View.ld_unit_zero (S := S32x4096) zeros2, View.ld_unit_zero (S := S4096) zeros1]
  funext j
  obtain ⟨-, -, -, -, -, -, -, -, -, -, -, e0, e1⟩ := idx_facts t
  have hT : t.val < 64 := lt_of_lt_of_eq t.isLt N_0
  have hj0 : (j 0).val < 256 := (j 0).isLt
  show k0_pay1 (iblk0 V c 0 t) (iblk0 V c 2 t) (iblk0 V c 1 t) (iblk0 V c 3 t) (iblk0 V c 4 t) (iblk0 V c 5 t) j
    = Spec.geluArr (Spec.linArr XQ X W LD LU B) (((cfg0.win 6).blk t).view.emb j)
  have ej : (j : S256x4096.Idx) = ix2 (j 0) (j 1) := eq_ix2 (n0 := 256) (n1 := 4096) j
  have ee : ((cfg0.win 6).blk t).view.emb j = ix2 (⟨t.val * 256 + (j 0).val, by omega⟩ : Fin 16384) (j 1) := by
    funext a; apply Fin.ext
    match a with
    | ⟨0, _⟩ => show win0_6.index t (0 : Fin 2) * 256 + 1 * (j 0).val = t.val * 256 + (j 0).val; rw [e0]; omega
    | ⟨1, _⟩ => show win0_6.index t (1 : Fin 2) * 4096 + 1 * (j 1).val = (j 1).val; rw [e1]; omega
  rw [ee]
  exact (congrArg (k0_pay1 (iblk0 V c 0 t) (iblk0 V c 2 t) (iblk0 V c 1 t) (iblk0 V c 3 t) (iblk0 V c 4 t) (iblk0 V c 5 t)) ej).trans
    (block_eq V c t XQ X W LD LU B h0 h1 h2 h3 h4 h5 (j 0) (j 1) _ rfl)

/-- An index of the array is in point `t`'s block iff each coordinate is in the block's range on its axis. -/
theorem mem_blk (t : Fin cfg0.N) (i : S16384x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v44).slice (win0_6.rect t)).set ↔ _
  rw [View.set_slice_whole, Rect.mem_set_unit]
  exact Iff.rfl

/-- Every index of the array is in some point's block: row `r` is in block `r / 256`. -/
theorem cover (i : S16384x4096.Idx) : ∃ t : Fin cfg0.N, (cfg0.win 6).flush t = true ∧ i ∈ ((cfg0.win 6).blk t).view.set := by
  have hi0 : (i 0).val < 16384 := (i 0).isLt
  have hi1 : (i 1).val < 4096 := (i 1).isLt
  have hN : cfg0.N = 64 := N_0
  let t : Fin cfg0.N := ⟨(i 0).val / 256, by rw [hN]; omega⟩
  obtain ⟨-, -, -, -, -, -, -, -, -, -, -, e0, e1⟩ := idx_facts t
  have ht : t.val = (i 0).val / 256 := rfl
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; rw [e0, ht]; omega
  | ⟨1, _⟩ => show win0_6.index t (1 : Fin 2) * 4096 ≤ (i 1).val ∧ (i 1).val < win0_6.index t (1 : Fin 2) * 4096 + 4096; rw [e1]; omega
end Array

/-- Region 0's output array after the run: GELU of the fused linear layer of its six input arrays as the region finds them. -/
theorem value (V : (c : Dev nD) → (b : Ref sig .tc) → Buf (Elt Ideal) ((c : Thread nD τ).loc b)) (c : Dev nD)
    (XQ X : FVec Ideal S16384x1024 .f32) (W : FVec Ideal S4096x1024 .f32) (LD : FVec Ideal S32x1024 .f32)
    (LU : FVec Ideal S4096x32 .f32) (B : FVec Ideal S4096 .f32)
    (h0 : V c main_v42 = XQ) (h1 : V c main_v43 = X)
    (h2 : V c main_v7 = transpose S1024x4096 [1, 0] W transposes_S4096x1024_S1024x4096_1_0)
    (h3 : V c main_v17 = transpose S1024x32 [1, 0] LD transposes_S32x1024_S1024x32_1_0)
    (h4 : V c main_v19 = transpose S32x4096 [1, 0] LU transposes_S4096x32_S32x4096_1_0)
    (h5 : V c main_arg6 = B) :
    (Gen.dat0 V c).arrAt 6 cfg0.N = Spec.geluArr (Spec.linArr XQ X W LD LU B) :=
  (dat0 V c).arrAt_eq_of_cover 6 (Spec.geluArr (Spec.linArr XQ X W LD LU B))
    (fun t _ => flushed_eq V c t XQ X W LD LU B h0 h1 h2 h3 h4 h5) (cover)

end Cert.KernelIdeal.Region0

end
-- ==== Proof.Region1.lean ====
/-
  The second linear layer of the quantised MLP, as the second region of the kernel program leaves it.

  The region walks 32 row blocks of 512 tokens. At block `t` it holds rows `512·t … 512·t + 511` of the quantised
  activations `xq` and of the raw activations `x` (both 16384 × 4096), and the whole of three transposed matrices —
  the weight `wᵀ` (4096 × 1024), the down-projection `ldᵀ` (4096 × 32), the up-projection `luᵀ` (32 × 1024) — and of
  the bias `b` (1024). It writes, at row `p` of the block and output feature `q`,
      Σ_k xq[512·t + p, k] · wᵀ[k, q]  +  Σ_r (Σ_k x[512·t + p, k] · ldᵀ[k, r]) · luᵀ[r, q]  +  b[q],
  each product summed into a zero accumulator, the rank-32 intermediate passed through a change of format that is the
  identity on the extended reals. Since `wᵀ[k, q] = w[q, k]`, `ldᵀ[k, r] = ld[r, k]`, `luᵀ[r, q] = lu[q, r]`, that is
  entry `(512·t + p, q)` of `Spec.linArr xq x w ld lu b`; and every row `r` of the 16384 lies in exactly the block
  `r / 512`, so the 32 blocks together are the whole array.

  Order of the file: each of the three products read at an entry (a sum over the one contracted coordinate); the
  block's entry as the formula above; which block of each operand a grid point holds; an entry of a held block as an
  entry of the operand array; the written block as a block of `Spec.linArr`; the blocks cover the array; the array.
-/
import proofs.«178017_j4947802325522_1_alg».proof.Proof.Gen.KernelIdeal.Frame
import proofs.«178017_j4947802325522_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1
open Cert.KernelIdeal Cert.KernelIdeal.Gen Idealize.ShloMosaic Idealize.ShloMosaic.TcCoe Idealize.SL.Sem
open Idealize.ShloMosaic.ValueIdx
open Idealize.ShloMosaic.Pipeline (Dat)

/-! ## The three products at an entry

Each contracts the second axis of its left operand with the first axis of its right operand. For an output entry
`(p, q)` and a contraction coordinate `k`, the left operand is read at `(p, k)` and the right at `(k, q)`; the four
lemmas before each product say so axis by axis. -/

/-! ### Activations against the transposed weight -/

theorem wgt_lhs0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem wgt_lhs1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem wgt_rhs0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem wgt_rhs1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The main term: summed into a zero accumulator, the product of a 512 × 4096 block with a 4096 × 1024 matrix is, at row
    `p` and column `q`, the sum over `k` of the left's `(p, k)` times the right's `(k, q)`. -/
theorem wgt_apply (x : FVec Ideal S512x4096 .bf16) (y : FVec Ideal S4096x1024 .bf16) (p : Fin 512) (q : Fin 1024) :
    matmul dot_S512x4096_S4096x1024_S512x1024_1_0_0_1_n_n none x y (constant S512x1024 .f32 0x00000000#32) (ix2 p q)
      = ∑ k : Fin 4096, x (ix2 p k) * y (ix2 k q) := by
  refine (Ideal.matmul_constant_zero_apply dot_S512x4096_S4096x1024_S512x1024_1_0_0_1_n_n none x y (ix2 p q)).trans ?_
  rw [← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 p q) ((ValueIdx.contrEquiv1 dot_S512x4096_S4096x1024_S512x1024_1_0_0_1_n_n 4096 rfl rfl).symm k) = ix2 p k := funext fun a => Fin.ext (by
    match a with
    | ⟨0, _⟩ => exact wgt_lhs0 _ _
    | ⟨1, _⟩ => exact (wgt_lhs1 _ _).trans hk)
  have er : dot_S512x4096_S4096x1024_S512x1024_1_0_0_1_n_n.rhsIdx (ix2 p q) ((ValueIdx.contrEquiv1 dot_S512x4096_S4096x1024_S512x1024_1_0_0_1_n_n 4096 rfl rfl).symm k) = ix2 k q := funext fun a => Fin.ext (by
    match a with
    | ⟨0, _⟩ => exact (wgt_rhs0 _ _).trans hk
    | ⟨1, _⟩ => exact wgt_rhs1 _ _)
  rw [el, er]

/-! ### Activations against the transposed down-projection -/

theorem down_lhs0 (i : S512x32.Idx) (q : dot_S512x4096_S4096x32_S512x32_1_0_0_1_n_n.contr.Idx) :
    (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
theorem down_lhs1 (i : S512x32.Idx) (q : dot_S512x4096_S4096x32_S512x32_1_0_0_1_n_n.contr.Idx) :
    (dot_S512x4096_S4096x32_S512x32_1_0_0_1_n_n.lhsIdx i q 1).val = (q ⟨0, by decide⟩).val :=
  dot_S512x4096_S4096x32_S512x32_1_0_0_1_n_n.lhsIdx_val_of_single rfl i q
theorem down_rhs0 (i : S512x32.Idx) (q : dot_S512x4096_S4096x32_S512x32_1_0_0_1_n_n.contr.Idx) :
    (dot_S512x4096_S4096x32_S512x32_1_0_0_1_n_n.rhsIdx i q 0).val = (q ⟨0, by decide⟩).val :=
  dot_S512x4096_S4096x32_S512x32_1_0_0_1_n_n.rhsIdx_val_of_single rfl i q
theorem down_rhs1 (i : S512x32.Idx) (q : dot_S512x4096_S4096x32_S512x32_1_0_0_1_n_n.contr.Idx) :
    (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- The rank-32 intermediate: summed into a zero accumulator, the product of a 512 × 4096 block with a 4096 × 32 matrix is, at row
    `p` and column `q`, the sum over `k` of the left's `(p, k)` times the right's `(k, q)`. -/
theorem down_apply (x : FVec Ideal S512x4096 .bf16) (y : FVec Ideal S4096x32 .bf16) (p : Fin 512) (q : Fin 32) :
    matmul dot_S512x4096_S4096x32_S512x32_1_0_0_1_n_n none x y (constant S512x32 .f32 0x00000000#32) (ix2 p q)
      = ∑ k : Fin 4096, x (ix2 p k) * y (ix2 k q) := by
  refine (Ideal.matmul_constant_zero_apply dot_S512x4096_S4096x32_S512x32_1_0_0_1_n_n none x y (ix2 p q)).trans ?_
  rw [← Equiv.sum_comp (ValueIdx.contrEquiv1 dot_S512x4096_S4096x32_S512x32_1_0_0_1_n_n 4096 rfl rfl).symm]
  refine Finset.sum_congr rfl fun k _ => ?_
  have hk := ValueIdx.contrEquiv1_symm_val dot_S512x4096_S4096x32_S512x32_1_0_0_1_n_n 4096 rfl rfl k
  have el : dot_S512x4096_S4096x32_S512x32_1_0_0_1_n_n.lhsIdx (ix2 p q) ((ValueIdx.contrEquiv1 dot_S512x4096_S4096x32_S512x32_1_0_0_1_n_n 4096 rfl rfl).symm k) = ix2 p k := funext fun a => Fin.ext (by
    match a with
    | ⟨0, _⟩ => exact down_lhs0 _ _
    | ⟨1, _⟩ => exact (down_lhs1 _ _).trans hk)
  have er : dot_S512x4096_S4096x32_S512x32_1_0_0_1_n_n.rhsIdx (ix2 p q) ((ValueIdx.contrEquiv1 dot_S512x4096_S4096x32_S512x32_1_0_0_1_n_n 4096 rfl rfl).symm k) = ix2 k q := funext fun a => Fin.ext (by
    match a with
    | ⟨0, _⟩ => exact (down_rhs0 _ _).trans hk
    | ⟨1, _⟩ => exact down_rhs1 _ _)
  rw [el, er]

/-! ### The rank-32 intermediate against the transposed up-projection -/

theorem up_lhs0 (i : S512x1024.Idx) (q : dot_S512x32_S32x1024_S512x1024_1_0_0_1_n_n.contr.Idx) :
    (dot_S512x32_S32x1024_S512x1024_1_0_0_1_n_n.lhsIdx i q 0).val = (i 0).val := by
  unfold DotDims.lhsIdx
  rw [dif_neg (show ¬(0 : Fin S512x32.rank) ∈ dot_S512x32_S32x1024_S512x1024_1_0_0_1_n_n.lhsBatch by decide), dif_pos (show (0 : Fin S512x32.rank) ∈ dot_S512x32_S32x1024_S512x1024_1_0_0_1_n_n.lhsNonContracting by decide)]
  rfl
theorem up_lhs1 (i : S512x1024.Idx) (q : dot_S512x32_S32x1024_S512x1024_1_0_0_1_n_n.contr.Idx) :
    (dot_S512x32_S32x1024_S512x1024_1_0_0_1_n_n.lhsIdx i q 1).val = (q ⟨0, by decide⟩).val :=
  dot_S512x32_S32x1024_S512x1024_1_0_0_1_n_n.lhsIdx_val_of_single rfl i q
theorem up_rhs0 (i : S512x1024.Idx) (q : dot_S512x32_S32x1024_S512x1024_1_0_0_1_n_n.contr.Idx) :
    (dot_S512x32_S32x1024_S512x1024_1_0_0_1_n_n.rhsIdx i q 0).val = (q ⟨0, by decide⟩).val :=
  dot_S512x32_S32x1024_S512x1024_1_0_0_1_n_n.rhsIdx_val_of_single rfl i q
theorem up_rhs1 (i : S512x1024.Idx) (q : dot_S512x32_S32x1024_S512x1024_1_0_0_1_n_n.contr.Idx) :
    (dot_S512x32_S32x1024_S512x1024_1_0_0_1_n_n.rhsIdx i q 1).val = (i 1).val := by
  unfold DotDims.rhsIdx
  rw [dif_neg (show ¬(1 : Fin S32x1024.rank) ∈ dot_S512x32_S32x1024_S512x1024_1_0_0_1_n_n.rhsBatch by decide), dif_pos (show (1 : Fin S32x1024.rank) ∈ dot_S512x32_S32x1024_S512x1024_1_0_0_1_n_n.rhsNonContracting by decide)]
  rfl

/-- The low-rank correction: summed into a zero accumulator, the product of a 512 × 32 block with a 32 × 1024 matrix is, at row
    `p` and column `q`, the sum over `k` of the left's `(p, k)` times the right's `(k, q)`. -/
theorem up_apply (x : FVec Ideal S512x32 .bf16) (y : FVec Ideal S32x1024 .bf16) (p : Fin 512) (q : Fin 1024) :
    matmul dot_S512x32_S32x1024_S512x1024_1_0_0_1_n_n none x y (constant S512x1024 .f32 0x00000000#32) (ix2 p q)
      = ∑ k : Fin 32, x (ix2 p k) * y (ix2 k q) := by
  refine (Ideal.matmul_constant_zero_apply dot_S512x32_S32x1024_S512x1024_1_0_0_1_n_n none x y (ix2 p q)).trans ?_
  rw [← Equiv.sum_comp (ValueIdx.contrEquiv1 dot_S512x32_S32x1024_S512x1024_1_0_0_1_n_n 32 rfl rfl).symm]
  refine Finset.sum_congr rfl fun k _ => ?_
  have hk := ValueIdx.contrEquiv1_symm_val dot_S512x32_S32x1024_S512x1024_1_0_0_1_n_n 32 rfl rfl k
  have el : dot_S512x32_S32x1024_S512x1024_1_0_0_1_n_n.lhsIdx (ix2 p q) ((ValueIdx.contrEquiv1 dot_S512x32_S32x1024_S512x1024_1_0_0_1_n_n 32 rfl rfl).symm k) = ix2 p k := funext fun a => Fin.ext (by
    match a with
    | ⟨0, _⟩ => exact up_lhs0 _ _
    | ⟨1, _⟩ => exact (up_lhs1 _ _).trans hk)
  have er : dot_S512x32_S32x1024_S512x1024_1_0_0_1_n_n.rhsIdx (ix2 p q) ((ValueIdx.contrEquiv1 dot_S512x32_S32x1024_S512x1024_1_0_0_1_n_n 32 rfl rfl).symm k) = ix2 k q := funext fun a => Fin.ext (by
    match a with
    | ⟨0, _⟩ => exact (up_rhs0 _ _).trans hk
    | ⟨1, _⟩ => exact up_rhs1 _ _)
  rw [el, er]

/-! ## The block's entry -/

/-- What the region's body stores at row `p`, feature `q` of its output block, from the blocks it holds: the main
    term, plus the low-rank correction through the rank-32 intermediate, plus the bias at `q` (the one row of the bias
    repeated over the 512 rows). Casts of a shape to itself and the change of format are the identity. -/
theorem payload_apply (v0 v5 : FVec Ideal S512x4096 .bf16) (v2 : FVec Ideal S4096x1024 .bf16) (v7 : FVec Ideal S4096x32 .bf16)
    (v11 : FVec Ideal S32x1024 .bf16) (v15 : FVec Ideal S1024 .f32) (p : Fin 512) (q : Fin 1024) :
    k1_pay1 (F := Ideal) v0 v2 v5 v7 v11 v15 (ix2 p q)
      = (∑ k : Fin 4096, v0 (ix2 p k) * v2 (ix2 k q)
          + ∑ r : Fin 32, (∑ k : Fin 4096, v5 (ix2 p k) * v7 (ix2 k r)) * v11 (ix2 r q)) + v15 (ix1 q) := by
  unfold k1_pay1
  simp only [shapeCast_self]
  rw [addf_apply, addf_apply, wgt_apply, up_apply, broadcastTo_1b_ab_apply, shapeCast_a_1a_apply]
  simp only [truncf_apply, down_apply]

/-! ## Which block of each operand a grid point holds -/

/-- The origin of a rank-2 shape, as the constant zero offset. -/
theorem origin2 : (![0, 0] : Fin 2 → Nat) = fun _ => 0 := funext fun a => by fin_cases a <;> rfl
/-- The origin of a rank-1 shape, as the constant zero offset. -/
theorem origin1 : (![0] : Fin 1 → Nat) = fun _ => 0 := funext fun a => by fin_cases a; rfl

/-- At grid point `t` the two activation arrays and the output are at row block `t`, column block 0; the three
    matrices and the bias are at block 0 on every axis (each is held whole). Decided over the 32 points. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

section Blocks
variable (V : (c : Dev nD) → (b : Ref sig .tc) → Buf (Elt Ideal) ((c : Thread nD τ).loc b)) (c : Dev nD)

/-! ## An entry of a held block is an entry of the operand's array

A block's coordinate on an axis is the block index times the block's extent plus the coordinate inside the block. -/

/-- Row `p` of the quantised activations' block at point `t` is row `512·t + p` of the array. -/
theorem xq_block (t : Fin cfg1.N) (p : Fin 512) (k : Fin 4096) (r : Fin 16384) (hr : r.val = 512 * t.val + p.val) :
    (iblk1 V c 0 t : Vec Ideal S512x4096 .bf16) (ix2 p k) = (V c main_v63 : S16384x4096.Idx → EReal) (ix2 r k) := by
  obtain ⟨e0, e1, -⟩ := block_indices t
  unfold iblk1
  rw [View.read_apply]
  show V c main_v63 _ = V c main_v63 _
  congr 1
  funext a; apply Fin.ext
  match a with
  | ⟨0, _⟩ => show win1_0.index t 0 * 512 + 1 * p.val = r.val; rw [e0, hr]; omega
  | ⟨1, _⟩ => show win1_0.index t 1 * 4096 + 1 * k.val = k.val; rw [e1]; omega

/-- Row `p` of the raw activations' block at point `t` is row `512·t + p` of the array. -/
theorem x_block (t : Fin cfg1.N) (p : Fin 512) (k : Fin 4096) (r : Fin 16384) (hr : r.val = 512 * t.val + p.val) :
    (iblk1 V c 1 t : Vec Ideal S512x4096 .bf16) (ix2 p k) = (V c main_v64 : S16384x4096.Idx → EReal) (ix2 r k) := by
  obtain ⟨-, -, e0, e1, -⟩ := block_indices t
  unfold iblk1
  rw [View.read_apply]
  show V c main_v64 _ = V c main_v64 _
  congr 1
  funext a; apply Fin.ext
  match a with
  | ⟨0, _⟩ => show win1_1.index t 0 * 512 + 1 * p.val = r.val; rw [e0, hr]; omega
  | ⟨1, _⟩ => show win1_1.index t 1 * 4096 + 1 * k.val = k.val; rw [e1]; omega

/-- The transposed weight is held whole. -/
theorem wT_block (t : Fin cfg1.N) (k : Fin 4096) (o : Fin 1024) :
    (iblk1 V c 2 t : Vec Ideal S4096x1024 .bf16) (ix2 k o) = (V c main_v15 : S4096x1024.Idx → EReal) (ix2 k o) := by
  obtain ⟨-, -, -, -, e0, e1, -⟩ := block_indices t
  unfold iblk1
  rw [View.read_apply]
  show V c main_v15 _ = V c main_v15 _
  congr 1
  funext a; apply Fin.ext
  match a with
  | ⟨0, _⟩ => show win1_2.index t 0 * 4096 + 1 * k.val = k.val; rw [e0]; omega
  | ⟨1, _⟩ => show win1_2.index t 1 * 1024 + 1 * o.val = o.val; rw [e1]; omega

/-- The transposed down-projection is held whole. -/
theorem ldT_block (t : Fin cfg1.N) (k : Fin 4096) (r : Fin 32) :
    (iblk1 V c 3 t : Vec Ideal S4096x32 .bf16) (ix2 k r) = (V c main_v21 : S4096x32.Idx → EReal) (ix2 k r) := by
  obtain ⟨-, -, -, -, -, -, e0, e1, -⟩ := block_indices t
  unfold iblk1
  rw [View.read_apply]
  show V c main_v21 _ = V c main_v21 _
  congr 1
  funext a; apply Fin.ext
  match a with
  | ⟨0, _⟩ => show win1_3.index t 0 * 4096 + 1 * k.val = k.val; rw [e0]; omega
  | ⟨1, _⟩ => show win1_3.index t 1 * 32 + 1 * r.val = r.val; rw [e1]; omega

/-- The transposed up-projection is held whole. -/
theorem luT_block (t : Fin cfg1.N) (r : Fin 32) (o : Fin 1024) :
    (iblk1 V c 4 t : Vec Ideal S32x1024 .bf16) (ix2 r o) = (V c main_v23 : S32x1024.Idx → EReal) (ix2 r o) := by
  obtain ⟨-, -, -, -, -, -, -, -, e0, e1, -⟩ := block_indices t
  unfold iblk1
  rw [View.read_apply]
  show V c main_v23 _ = V c main_v23 _
  congr 1
  funext a; apply Fin.ext
  match a with
  | ⟨0, _⟩ => show win1_4.index t 0 * 32 + 1 * r.val = r.val; rw [e0]; omega
  | ⟨1, _⟩ => show win1_4.index t 1 * 1024 + 1 * o.val = o.val; rw [e1]; omega

/-- The bias is held whole. -/
theorem bias_block (t : Fin cfg1.N) (o : Fin 1024) :
    (iblk1 V c 5 t : Vec Ideal S1024 .f32) (ix1 o) = (V c main_arg12 : S1024.Idx → EReal) (ix1 o) := by
  obtain ⟨-, -, -, -, -, -, -, -, -, -, e0, -⟩ := block_indices t
  unfold iblk1
  rw [View.read_apply]
  show V c main_arg12 _ = V c main_arg12 _
  congr 1
  funext a; apply Fin.ext
  match a with
  | ⟨0, _⟩ => show win1_5.index t 0 * 1024 + 1 * o.val = o.val; rw [e0]; omega

/-! ## The written block is a block of the linear layer -/

variable (XQ X : FVec Ideal S16384x4096 .f32) (W : FVec Ideal S1024x4096 .f32) (LD : FVec Ideal S32x4096 .f32)
    (LU : FVec Ideal S1024x32 .f32) (B : FVec Ideal S1024 .f32)
    (h0 : V c main_v63 = XQ) (h1 : V c main_v64 = X)
    (h2 : V c main_v15 = transpose S4096x1024 [1, 0] W transposes_S1024x4096_S4096x1024_1_0)
    (h3 : V c main_v21 = transpose S4096x32 [1, 0] LD transposes_S32x4096_S4096x32_1_0)
    (h4 : V c main_v23 = transpose S32x1024 [1, 0] LU transposes_S1024x32_S32x1024_1_0)
    (h5 : V c main_arg12 = B)

include h0 h1 h2 h3 h4 h5 in
/-- Row `p`, feature `q` of the block written at point `t` is entry `(512·t + p, q)` of the linear layer: the held
    blocks are rows of the arrays, and a transposed matrix at `(k, q)` is the matrix at `(q, k)`. -/
theorem entry (t : Fin cfg1.N) (p : Fin 512) (q : Fin 1024) (r : Fin 16384) (hr : r.val = 512 * t.val + p.val) :
    k1_pay1 (F := Ideal) (iblk1 V c 0 t) (iblk1 V c 2 t) (iblk1 V c 1 t) (iblk1 V c 3 t) (iblk1 V c 4 t) (iblk1 V c 5 t) (ix2 p q)
      = Spec.linAt XQ X W LD LU B r q := by
  refine (payload_apply (iblk1 V c 0 t) (iblk1 V c 1 t) (iblk1 V c 2 t) (iblk1 V c 3 t) (iblk1 V c 4 t) (iblk1 V c 5 t) p q).trans ?_
  unfold Spec.linAt
  simp only [xq_block V c t p _ r hr, x_block V c t p _ r hr, wT_block V c t, ldT_block V c t, luT_block V c t, bias_block V c t]
  rw [h0, h1, h2, h3, h4, h5]
  simp only [transpose_ix2_apply W transposes_S1024x4096_S4096x1024_1_0, transpose_ix2_apply LD transposes_S32x4096_S4096x32_1_0,
    transpose_ix2_apply LU transposes_S1024x32_S32x1024_1_0]

include h0 h1 h2 h3 h4 h5 in
/-- The same over an index `j` of the block and an index `i` of the array tied by their coordinates:
    `i = (512·t + j₀, j₁)`. -/
theorem entry_at (t : Fin cfg1.N) (j : S512x1024.Idx) (i : S16384x1024.Idx)
    (hi0 : (i 0).val = 512 * t.val + (j 0).val) (hi1 : (i 1).val = (j 1).val) :
    k1_pay1 (F := Ideal) (iblk1 V c 0 t) (iblk1 V c 2 t) (iblk1 V c 1 t) (iblk1 V c 3 t) (iblk1 V c 4 t) (iblk1 V c 5 t) j
      = Spec.linArr XQ X W LD LU B i := by
  obtain ⟨p, q, rfl⟩ : ∃ (p : Fin 512) (q : Fin 1024), j = ix2 p q := ⟨j 0, j 1, eq_ix2 j⟩
  obtain ⟨r, o, rfl⟩ : ∃ (r : Fin 16384) (o : Fin 1024), i = ix2 r o := ⟨i 0, i 1, eq_ix2 i⟩
  have hr : r.val = 512 * t.val + p.val := hi0
  obtain rfl : o = q := Fin.ext hi1
  rw [Spec.linArr_ix2]
  exact entry V c XQ X W LD LU B h0 h1 h2 h3 h4 h5 t p o r hr

include h0 h1 h2 h3 h4 h5 in
/-- What point `t` writes back is block `t` of the linear layer of the six arrays: the body's one store fills the
    whole staging block with its payload, read from the six held blocks as they are. -/
theorem block_written (t : Fin cfg1.N) :
    (dat1 V c).flushed 6 t = ((cfg1.win 6).blk t).view.read (Elt Ideal) (Spec.linArr XQ X W LD LU B) := by
  show (cfg1.win 6).cut (grid1.coords t) ((dat1 V c).after 6 t) = _
  rw [after1_6]
  unfold out1_6
  rw [View.canon_unit_zero origin2]
  simp only [View.ld_unit_zero (S := S512x4096) origin2, View.ld_unit_zero (S := S4096x1024) origin2, View.ld_unit_zero (S := S4096x32) origin2,
    View.ld_unit_zero (S := S32x1024) origin2, View.ld_unit_zero (S := S1024) origin1]
  obtain ⟨-, -, -, -, -, -, -, -, -, -, -, e0, e1⟩ := block_indices t
  funext j
  show k1_pay1 (F := Ideal) (iblk1 V c 0 t) (iblk1 V c 2 t) (iblk1 V c 1 t) (iblk1 V c 3 t) (iblk1 V c 4 t) (iblk1 V c 5 t) j
      = Spec.linArr XQ X W LD LU B (((cfg1.win 6).blk t).view.emb j)
  refine entry_at V c XQ X W LD LU B h0 h1 h2 h3 h4 h5 t j (((cfg1.win 6).blk t).view.emb j) ?_ ?_
  · show win1_6.index t (0 : Fin 2) * 512 + 1 * (j 0).val = 512 * t.val + (j 0).val; rw [e0]; omega
  · show win1_6.index t (1 : Fin 2) * 1024 + 1 * (j 1).val = (j 1).val; rw [e1]; omega

end Blocks

/-! ## The blocks cover the array -/

/-- Row `r` of the 16384 lies in block `r / 512` (`512·(r / 512) ≤ r < 512·(r / 512) + 512`), and every block spans all
    1024 features: every entry of the output array is written by some point. -/
theorem rows_covered (i : S16384x1024.Idx) : ∃ t : Fin cfg1.N, (cfg1.win 6).flush t = true ∧ i ∈ ((cfg1.win 6).blk t).view.set := by
  have hi0 : (i 0).val < 16384 := (i 0).isLt
  have hi1 : (i 1).val < 1024 := (i 1).isLt
  have hN : cfg1.N = 32 := N_1
  have ht : (i 0).val / 512 < cfg1.N := by rw [hN]; omega
  obtain ⟨-, -, -, -, -, -, -, -, -, -, -, e0, e1⟩ := block_indices ⟨(i 0).val / 512, ht⟩
  refine ⟨⟨(i 0).val / 512, ht⟩, flush1_6 _, ?_⟩
  show i ∈ ((View.whole main_v65).slice (win1_6.rect ⟨(i 0).val / 512, ht⟩)).set
  rw [View.set_slice_whole, Rect.mem_set_unit]
  intro a
  match a with
  | ⟨0, _⟩ =>
    show win1_6.index ⟨(i 0).val / 512, ht⟩ (0 : Fin 2) * 512 ≤ (i 0).val ∧ (i 0).val < win1_6.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_6.index ⟨(i 0).val / 512, ht⟩ (1 : Fin 2) * 1024 ≤ (i 1).val ∧ (i 1).val < win1_6.index ⟨(i 0).val / 512, ht⟩ (1 : Fin 2) * 1024 + 1024
    rw [e1]; omega

/-! ## The array -/

/-- After the region has run, its output array is the linear layer of its six input arrays as it found them: the
    quantised and the raw activations, and the weight, the two low-rank factors (each met transposed) and the bias. -/
theorem value (V : (c : Dev nD) → (b : Ref sig .tc) → Buf (Elt Ideal) ((c : Thread nD τ).loc b)) (c : Dev nD)
    (XQ X : FVec Ideal S16384x4096 .f32) (W : FVec Ideal S1024x4096 .f32) (LD : FVec Ideal S32x4096 .f32)
    (LU : FVec Ideal S1024x32 .f32) (B : FVec Ideal S1024 .f32)
    (h0 : V c main_v63 = XQ) (h1 : V c main_v64 = X)
    (h2 : V c main_v15 = transpose S4096x1024 [1, 0] W transposes_S1024x4096_S4096x1024_1_0)
    (h3 : V c main_v21 = transpose S4096x32 [1, 0] LD transposes_S32x4096_S4096x32_1_0)
    (h4 : V c main_v23 = transpose S32x1024 [1, 0] LU transposes_S1024x32_S32x1024_1_0)
    (h5 : V c main_arg12 = B) :
    (Gen.dat1 V c).arrAt 6 cfg1.N = Spec.linArr XQ X W LD LU B :=
  (dat1 V c).arrAt_eq_of_cover 6 (Spec.linArr XQ X W LD LU B)
    (fun t _ => block_written V c XQ X W LD LU B h0 h1 h2 h3 h4 h5 t) rows_covered

end Cert.KernelIdeal.Region1

end
-- ==== Proof.Host0.lean ====
/-
  The six arrays the first layer's kernel region reads, as the region finds them, written as functions of the launch
  memory alone.

  Before the region the program prepares its operands on the host: the 4-bit weight codes are converted to reals and
  scaled group by group (the dequantised weight), the three weight-like operands (weight, low-rank down- and
  up-projection) are transposed, the activations are divided by the smoothing vector and quantised–dequantised group by
  group, and each operand is then narrowed to the 16-bit format. On the extended reals narrowing is the identity, so it
  leaves no trace; the dequantised weight and the quantised–dequantised activations are exactly the reference program's
  own stage functions of the same arguments (the two programs apply the same chain of elementwise operations, reshapes
  and broadcasts, in the same order, to the same arguments).
-/
import proofs.«178017_j4947802325522_1_alg».proof.Proof.Gen.KernelIdeal.Frame
import proofs.«178017_j4947802325522_1_alg».proof.Proof.Gen.ReferenceIdeal.Read

noncomputable section

namespace Cert.KernelIdeal.Host0
open Cert.KernelIdeal Cert.KernelIdeal.Gen Idealize.ShloMosaic Idealize.ShloMosaic.TcCoe Idealize.SL.Sem
open Cert.ReferenceIdeal.Read (val_main_v17 val_main_v23 val_main_v67)
open Idealize.ShloMosaic.StableHlo
variable (m : (ℓ : Loc nD τ sig) → Buf (Elt Ideal) ℓ) (ρ : Dev nD → PrngReg) (c : Dev nD)

/-- The quantised activations: the launch activations divided feature by feature by the first smoothing vector, then
    quantised–dequantised in groups of 64 — the reference's stage of the same name applied to the same two arguments. -/
theorem v42 : Gen.V5 m ρ c main_v42 = val_main_v17 (F := Ideal) (m ((c : Thread nD τ).loc main_arg0)) (m ((c : Thread nD τ).loc main_arg3)) := by
  dsimp only [Gen.V5, Gen.W5, Gen.hostOps0_4]
  after_results_simp
  open Cert.ReferenceIdeal.Read in
  unfold val_main_v17 val_main_v16 val_main_v15 val_main_v14 val_main_call1_v4 val_main_call1_v3 val_main_cst_3
    val_main_call1_v2 val_main_call1_v1 val_main_call1_v0 val_main_cst_2 val_main_v13 val_main_v12 val_main_v11
    val_main_v10 val_main_v9 val_main_cst_1 val_main_v8 val_main_v7 val_main_cst_0 val_main_v6 val_main_v5 val_main_cst
    val_main_v4 val_main_v3 val_main_v2 val_main_v1 val_main_v0
  rfl

/-- The raw activations: the launch activations themselves (only narrowed, which changes nothing). -/
theorem v43 : Gen.V5 m ρ c main_v43 = (m ((c : Thread nD τ).loc main_arg0)) := by
  dsimp only [Gen.V5, Gen.W5, Gen.hostOps0_4]
  after_results_simp
  rfl

/-- The weight: the transpose of the dequantised first-layer weight (codes converted to reals, each group of 64 times
    its scale) — the reference's dequantised weight of the same two arguments, transposed. -/
theorem v7 : Gen.V5 m ρ c main_v7 = transpose S1024x4096 [1, 0] (val_main_v23 (F := Ideal) (m ((c : Thread nD τ).loc main_arg1)) (m ((c : Thread nD τ).loc main_arg2))) transposes_S4096x1024_S1024x4096_1_0 := by
  dsimp only [Gen.V5, Gen.W5, Gen.hostOps0_4]
  after_results_simp
  open Cert.ReferenceIdeal.Read in
  unfold val_main_v23 val_main_v22 val_main_v21 val_main_v20 val_main_v19 val_main_v18
  rfl

/-- The low-rank down-projection, transposed. -/
theorem v17 : Gen.V5 m ρ c main_v17 = transpose S1024x32 [1, 0] (m ((c : Thread nD τ).loc main_arg4)) transposes_S32x1024_S1024x32_1_0 := by
  dsimp only [Gen.V5, Gen.W5, Gen.hostOps0_4]
  after_results_simp
  rfl

/-- The low-rank up-projection, transposed. -/
theorem v19 : Gen.V5 m ρ c main_v19 = transpose S32x4096 [1, 0] (m ((c : Thread nD τ).loc main_arg5)) transposes_S4096x32_S32x4096_1_0 := by
  dsimp only [Gen.V5, Gen.W5, Gen.hostOps0_4]
  after_results_simp
  rfl

/-- The bias: no host operation writes it, so it is as launched. -/
theorem arg6 : Gen.V5 m ρ c main_arg6 = (m ((c : Thread nD τ).loc main_arg6)) := by
  dsimp only [Gen.V5, Gen.W5, Gen.hostOps0_4]
  after_results_simp

end Cert.KernelIdeal.Host0

end
-- ==== Proof.Host1.lean ====
/-
  The six arrays the second layer's kernel region reads, as the region finds them, written as functions of the hidden
  activations `H` (the array the first region leaves behind) and of the launch memory.

  Between the two regions the program divides `H` feature by feature by the second smoothing vector and
  quantises–dequantises it in groups of 64: the chain of elementwise operations, reshapes and broadcasts is, operation
  for operation, the function `qdq2` of `H` and the smoothing vector. The second layer's weight was dequantised and
  transposed, and its two low-rank operands transposed, before the first region ran; the first region writes only its
  own output array, and no later host operation touches them, so at the second region's entry they still hold those
  values. The smoothing vector and the bias are never written: they are as launched. Narrowing to the 16-bit format is
  the identity on the extended reals and leaves no trace.
-/
import proofs.«178017_j4947802325522_1_alg».proof.Proof.Gen.KernelIdeal.Frame
import proofs.«178017_j4947802325522_1_alg».proof.Proof.Gen.ReferenceIdeal.Read
import proofs.«178017_j4947802325522_1_alg».proof.Proof.Quant

noncomputable section

namespace Cert.KernelIdeal.Host1
open Cert.KernelIdeal Cert.KernelIdeal.Gen Idealize.ShloMosaic Idealize.ShloMosaic.TcCoe Idealize.SL.Sem
open Cert.ReferenceIdeal.Read (val_main_v17 val_main_v23 val_main_v67)
open Idealize.ShloMosaic.StableHlo
variable (m : (ℓ : Loc nD τ sig) → Buf (Elt Ideal) ℓ) (ρ : Dev nD → PrngReg) (c : Dev nD)

/-- The second smoothing vector is as launched when the first region has run: the region does not write it, and no
    host operation before the region does. -/
theorem smooth2 : Gen.W6 m ρ c (Proc.devRef .tc main_arg9) = m ((c : Thread nD τ).loc main_arg9) := by
  rw [Gen.W6_of_ne m ρ c main_arg9 (by decide)]
  dsimp only [Gen.W5, Gen.hostOps0_4]
  after_results_simp

/-- The quantised hidden activations: `qdq2` of the hidden activations and the second smoothing vector. -/
theorem v63 : Gen.V11 m ρ c main_v63 = Cert.ReferenceIdeal.Bridge.qdq2 (F := Ideal) (Gen.W6 m ρ c (Proc.devRef .tc main_v44)) (m ((c : Thread nD τ).loc main_arg9)) := by
  dsimp only [Gen.V11, Gen.W11, Gen.hostOps1_4]
  after_results_simp
  rw [smooth2]
  generalize Gen.W6 m ρ c (Proc.devRef .tc main_v44) = H
  open Cert.ReferenceIdeal.Bridge in
  unfold qdq2 step grouped
  rfl

/-- The raw hidden activations: the first region's output array itself (only narrowed, which changes nothing). -/
theorem v64 : Gen.V11 m ρ c main_v64 = Gen.W6 m ρ c (Proc.devRef .tc main_v44) := by
  dsimp only [Gen.V11, Gen.W11, Gen.hostOps1_4]
  after_results_simp
  generalize Gen.W6 m ρ c (Proc.devRef .tc main_v44) = H
  rfl

/-- The weight: the transpose of the dequantised second-layer weight — the reference's dequantised weight of the same
    two arguments, transposed. -/
theorem v15 : Gen.V11 m ρ c main_v15 = transpose S4096x1024 [1, 0] (val_main_v67 (F := Ideal) (m ((c : Thread nD τ).loc main_arg7)) (m ((c : Thread nD τ).loc main_arg8))) transposes_S1024x4096_S4096x1024_1_0 := by
  dsimp only [Gen.V11, Gen.W11, Gen.hostOps1_4]
  after_results_simp
  rw [Gen.W6_of_ne m ρ c main_v15 (by decide)]
  dsimp only [Gen.W5, Gen.hostOps0_4]
  after_results_simp
  open Cert.ReferenceIdeal.Read in
  unfold val_main_v67 val_main_v66 val_main_v65 val_main_v64 val_main_v63 val_main_v62
  rfl

/-- The low-rank down-projection, transposed. -/
theorem v21 : Gen.V11 m ρ c main_v21 = transpose S4096x32 [1, 0] (m ((c : Thread nD τ).loc main_arg10)) transposes_S32x4096_S4096x32_1_0 := by
  dsimp only [Gen.V11, Gen.W11, Gen.hostOps1_4]
  after_results_simp
  rw [Gen.W6_of_ne m ρ c main_v21 (by decide)]
  dsimp only [Gen.W5, Gen.hostOps0_4]
  after_results_simp
  rfl

/-- The low-rank up-projection, transposed. -/
theorem v23 : Gen.V11 m ρ c main_v23 = transpose S32x1024 [1, 0] (m ((c : Thread nD τ).loc main_arg11)) transposes_S1024x32_S32x1024_1_0 := by
  dsimp only [Gen.V11, Gen.W11, Gen.hostOps1_4]
  after_results_simp
  rw [Gen.W6_of_ne m ρ c main_v23 (by decide)]
  dsimp only [Gen.W5, Gen.hostOps0_4]
  after_results_simp
  rfl

/-- The bias: never written, so as launched. -/
theorem arg12 : Gen.V11 m ρ c main_arg12 = (m ((c : Thread nD τ).loc main_arg12)) := by
  dsimp only [Gen.V11, Gen.W11, Gen.hostOps1_4]
  after_results_simp
  rw [Gen.W6_of_ne m ρ c main_arg12 (by decide)]
  dsimp only [Gen.W5, Gen.hostOps0_4]
  after_results_simp

end Cert.KernelIdeal.Host1

end
-- ==== Proof.lean ====
/-
  A quantised two-layer MLP with a low-rank correction: the kernel program and its jnp reference compute the same
  array over the extended reals.

  Each layer is  lin[t,o] = Σ_k xq[t,k]·w[o,k] + Σ_r (Σ_k x[t,k]·ld[r,k])·lu[o,r] + b[o],  where w is the dequantised
  weight (integer codes times per-group scales), xq the quantise-dequantise of the smoothed activations and x the raw
  activations; the first layer passes lin through the tanh form of GELU, the second takes xq and x from the first
  layer's result.

  The kernel program computes the per-layer preprocessing with the same host operations as the reference, transposes
  the weights, and runs each layer as one grid of token blocks (64 blocks of 256 tokens, then 32 blocks of 512): three
  products into zero accumulators, the bias, and for the first layer GELU. The reference contracts the untransposed
  weights directly. At the ideal instance a change of float format is the identity, a product into a zero accumulator
  and a contraction are the same finite sum, so block by block the kernel's arrays are the reference's: the hidden
  array (`hidden_eq`), then the result (`result_eq`). Only commutativity of the product is used (GELU's cube is
  x·(x·x) on one side and (x·x)·x on the other); no distributivity, so the finiteness precondition is never opened.

  The three frames are the generated frame certificates and the reference's generated run; the idealisation rewrote
  no operation, so `preserves` is trivial.
-/
import proofs.«178017_j4947802325522_1_alg».proof.Defs
import proofs.«178017_j4947802325522_1_alg».proof.Proof.Gen.Kernel
import proofs.«178017_j4947802325522_1_alg».proof.Proof.Gen.Kernel.Skeleton
import proofs.«178017_j4947802325522_1_alg».proof.Proof.Gen.Kernel.Launch
import proofs.«178017_j4947802325522_1_alg».proof.Proof.Gen.Kernel.Points
import proofs.«178017_j4947802325522_1_alg».proof.Proof.Gen.Kernel.Frame
import proofs.«178017_j4947802325522_1_alg».proof.Proof.Gen.KernelIdeal
import proofs.«178017_j4947802325522_1_alg».proof.Proof.Gen.KernelIdeal.Skeleton
import proofs.«178017_j4947802325522_1_alg».proof.Proof.Gen.KernelIdeal.Launch
import proofs.«178017_j4947802325522_1_alg».proof.Proof.Gen.KernelIdeal.Points
import proofs.«178017_j4947802325522_1_alg».proof.Proof.Gen.KernelIdeal.Frame
import proofs.«178017_j4947802325522_1_alg».proof.Proof.Gen.ReferenceIdeal
import proofs.«178017_j4947802325522_1_alg».proof.Proof.Gen.ReferenceIdeal.Run
import proofs.«178017_j4947802325522_1_alg».proof.Proof.Gen.ReferenceIdeal.Read
import proofs.«178017_j4947802325522_1_alg».proof.Proof.Gen.Pre_finite_inputs
import proofs.«178017_j4947802325522_1_alg».proof.Proof.Spec
import proofs.«178017_j4947802325522_1_alg».proof.Proof.RunValue
import proofs.«178017_j4947802325522_1_alg».proof.Proof.Quant
import proofs.«178017_j4947802325522_1_alg».proof.Proof.RefBridge
import proofs.«178017_j4947802325522_1_alg».proof.Proof.Region0
import proofs.«178017_j4947802325522_1_alg».proof.Proof.Region1
import proofs.«178017_j4947802325522_1_alg».proof.Proof.Host0
import proofs.«178017_j4947802325522_1_alg».proof.Proof.Host1
import Idealize.ShloMosaic.Adequacy
import Idealize.ShloMosaic.Init

noncomputable section

namespace Cert.Proof

open Idealize.ShloMosaic Idealize.ShloMosaic.TcCoe Idealize.SL.Sem

section KernelValue
open Cert.KernelIdeal Cert.KernelIdeal.Gen
open Cert.ReferenceIdeal.Read (val_main_v17 val_main_v23 val_main_v43 val_main_v61 val_main_v67 val_main_v74)

variable (m : (ℓ : Loc nD τ sig) → Buf (Elt Ideal) ℓ) (ρ : Dev nD → PrngReg) (c : Dev nD)

/-- The hidden activations: region 0's output array after its run is the reference's first layer (quantised product,
    low-rank correction, bias, GELU) of the launch memory. -/
theorem hidden_eq : W6 m ρ c (Proc.devRef .tc main_v44)
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W6_arr m ρ c 6).trans
    (Region0.value (V5 m ρ) c _ _ _ _ _ _ (Host0.v42 m ρ c) (Host0.v43 m ρ c) (Host0.v7 m ρ c) (Host0.v17 m ρ c)
      (Host0.v19 m ρ c) (Host0.arg6 m ρ c))).trans
    (Cert.ReferenceIdeal.Bridge.fc1 _ _ _ _ _ _ _).symm

/-- The result: region 1's output array after its run is the reference's second layer of the launch memory. -/
theorem result_eq : W12 m ρ c (Proc.devRef .tc main_v65)
    = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W12_arr m ρ c 6).trans
    (Region1.value (V11 m ρ) c _ _ _ _ _ _ (Host1.v63 m ρ c) (Host1.v64 m ρ c) (Host1.v15 m ρ c) (Host1.v21 m ρ c)
      (Host1.v23 m ρ c) (Host1.arg12 m ρ c))).trans ?_
  rw [hidden_eq m ρ c, ← Cert.ReferenceIdeal.Bridge.qdq2_eq]
  exact (Cert.ReferenceIdeal.Bridge.fc2 _ _ _ _ _ _ _ _ _ _ _ _ _).symm

end KernelValue

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's second-layer term of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (result_eq m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v74_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
